-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_100" .f32 0x3C23D70A#32 ((1 / 100 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x128x128 : Shape := ⟨4, ![4, 256, 128, 128]⟩
abbrev S4x128x128 : Shape := ⟨3, ![4, 128, 128]⟩
abbrev S19x64x256 : Shape := ⟨3, ![19, 64, 256]⟩
abbrev S_ : Shape := ⟨0, ![]⟩

class Facts : Prop where
  bcast_S_S4x256x128x128 : S_.BroadcastsInDim S4x256x128x128 (![] : Fin 0 → Fin S4x256x128x128.rank)
  reducesTo_S4x256x128x128_S_d0_1_2_3 : S4x256x128x128.ReducesTo [0, 1, 2, 3] S_
  h_S_ : 0 < S_.numel
  bcast_S_S19x64x256 : S_.BroadcastsInDim S19x64x256 (![] : Fin 0 → Fin S19x64x256.rank)
  reducesTo_S19x64x256_S_d0_1_2 : S19x64x256.ReducesTo [0, 1, 2] S_
  bcast_S_S4x128x128 : S_.BroadcastsInDim S4x128x128 (![] : Fin 0 → Fin S4x128x128.rank)
  reducesTo_S4x128x128_S_d0_1_2 : S4x128x128.ReducesTo [0, 1, 2] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S4x256x128x128 .f32) (main_arg1 : IVec S4x128x128 32) (main_arg2 : FVec F S19x64x256 .f32) : IVec S_ 1 :=
  let main_v0 : FVec F S4x256x128x128 .f32 := Host.absf main_arg0
  let main_cst : FVec F S_ .f32 := constant S_ .f32 0x7F800000#32
  let main_v1 : FVec F S4x256x128x128 .f32 := broadcastInDim S4x256x128x128 ![] bcast_S_S4x256x128x128 main_cst
  let main_v2 : IVec S4x256x128x128 1 := cmpf .olt main_v0 main_v1
  let main_c : IVec S_ 1 := constantI S_ 1 1#1
  let main_v3 : IVec S_ 1 := (fun x v => Host.reduce IntOp.andi x v reducesTo_S4x256x128x128_S_d0_1_2_3 h_S_) main_v2 main_c
  let main_v4 : FVec F S19x64x256 .f32 := Host.absf main_arg2
  let main_cst_0 : FVec F S_ .f32 := constant S_ .f32 0x7F800000#32
  let main_v5 : FVec F S19x64x256 .f32 := broadcastInDim S19x64x256 ![] bcast_S_S19x64x256 main_cst_0
  let main_v6 : IVec S19x64x256 1 := cmpf .olt main_v4 main_v5
  let main_c_1 : IVec S_ 1 := constantI S_ 1 1#1
  let main_v7 : IVec S_ 1 := (fun x v => Host.reduce IntOp.andi x v reducesTo_S19x64x256_S_d0_1_2 h_S_) main_v6 main_c_1
  let main_v8 : IVec S_ 1 := andi main_v3 main_v7
  let main_c_2 : IVec S_ 32 := constantI S_ 32 0#32
  let main_v9 : IVec S4x128x128 32 := broadcastInDim S4x128x128 ![] bcast_S_S4x128x128 main_c_2
  let main_v10 : IVec S4x128x128 1 := cmpi .sge main_arg1 main_v9
  let main_c_3 : IVec S_ 1 := constantI S_ 1 1#1
  let main_v11 : IVec S_ 1 := (fun x v => Host.reduce IntOp.andi x v reducesTo_S4x128x128_S_d0_1_2 h_S_) main_v10 main_c_3
  let main_v12 : IVec S_ 1 := andi main_v8 main_v11
  let main_c_4 : IVec S_ 32 := constantI S_ 32 19#32
  let main_v13 : IVec S4x128x128 32 := broadcastInDim S4x128x128 ![] bcast_S_S4x128x128 main_c_4
  let main_v14 : IVec S4x128x128 1 := cmpi .slt main_arg1 main_v13
  let main_c_5 : IVec S_ 1 := constantI S_ 1 1#1
  let main_v15 : IVec S_ 1 := (fun x v => Host.reduce IntOp.andi x v reducesTo_S4x128x128_S_d0_1_2 h_S_) main_v14 main_c_5
  fn_part1 (F := F) main_v12 main_v15
-- ==== Kernel.lean ====
abbrev S4x256x128x128 : Shape := ⟨4, ![4, 256, 128, 128]⟩
abbrev S4x128x128 : Shape := ⟨3, ![4, 128, 128]⟩
abbrev S19x64x256 : Shape := ⟨3, ![19, 64, 256]⟩
abbrev S65536x1 : Shape := ⟨2, ![65536, 1]⟩
abbrev S1216x256 : Shape := ⟨2, ![1216, 256]⟩
abbrev S32x8x128 : Shape := ⟨3, ![32, 8, 128]⟩
abbrev S1x256x16x128 : Shape := ⟨4, ![1, 256, 16, 128]⟩
abbrev S2048x1 : Shape := ⟨2, ![2048, 1]⟩
abbrev S1x8x128 : Shape := ⟨3, ![1, 8, 128]⟩
abbrev S256x16x128 : Shape := ⟨3, ![256, 16, 128]⟩
abbrev S256x2048 : Shape := ⟨2, ![256, 2048]⟩
abbrev S2048x1216 : Shape := ⟨2, ![2048, 1216]⟩
abbrev S2048x64 : Shape := ⟨2, ![2048, 64]⟩
abbrev S2048 : Shape := ⟨1, ![2048]⟩
abbrev S1 : Shape := ⟨1, ![1]⟩
abbrev S1x1 : Shape := ⟨2, ![1, 1]⟩
abbrev S8x128 : Shape := ⟨2, ![8, 128]⟩
abbrev S32x1x1 : Shape := ⟨3, ![32, 1, 1]⟩
abbrev S32 : Shape := ⟨1, ![32]⟩
abbrev S_ : Shape := ⟨0, ![]⟩

abbrev nBuf : Space → Nat
  | .hbm => 13
  | .vmem => 7
  | .smem => 0
  | _ => 0

abbrev bufTy : (tb : Table) → Fin (tcTables nBuf tb) → BufTy
  | .hbm, ⟨0, _⟩ => ⟨S4x256x128x128, .f32⟩
  | .hbm, ⟨1, _⟩ => ⟨S4x128x128, .i32⟩
  | .hbm, ⟨2, _⟩ => ⟨S19x64x256, .f32⟩
  | .hbm, ⟨3, _⟩ => ⟨S65536x1, .i32⟩
  | .hbm, ⟨4, _⟩ => ⟨S19x64x256, .bf16⟩
  | .hbm, ⟨5, _⟩ => ⟨S1216x256, .bf16⟩
  | .hbm, ⟨6, _⟩ => ⟨S32x8x128, .f32⟩
  | .hbm, ⟨7, _⟩ => ⟨S32x1x1, .f32⟩
  | .hbm, ⟨8, _⟩ => ⟨S32, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1x256x16x128, .f32⟩
  | .local _ .vmem, ⟨1, _⟩ => ⟨S1x256x16x128, .f32⟩
  | .local _ .vmem, ⟨2, _⟩ => ⟨S1216x256, .bf16⟩
  | .local _ .vmem, ⟨3, _⟩ => ⟨S2048x1, .i32⟩
  | .local _ .vmem, ⟨4, _⟩ => ⟨S2048x1, .i32⟩
  | .local _ .vmem, ⟨5, _⟩ => ⟨S1x8x128, .f32⟩
  | .local _ .vmem, ⟨6, _⟩ => ⟨S1x8x128, .f32⟩
  | _, _ => ⟨S4x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x256x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1216x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x128x128_S65536x1 : S4x128x128.ShapeCasts S65536x1
  bitsLt_bf16_f32 : FTy.bits .bf16 < FTy.bits .f32
  shapeCasts_S19x64x256_S1216x256 : S19x64x256.ShapeCasts S1216x256
  inb_S1x256x16x128_S1x256x16x128_0_0_0_0 : ∀ a, (![0, 0, 0, 0] : Fin 4 → Nat) a + S1x256x16x128.size a ≤ S1x256x16x128.size a
  h_S1x256x16x128 : 0 < S1x256x16x128.numel
  shapeCasts_S1x256x16x128_S256x16x128 : S1x256x16x128.ShapeCasts S256x16x128
  shapeCasts_S256x16x128_S256x2048 : S256x16x128.ShapeCasts S256x2048
  inb_S1216x256_S1216x256_0_0 : ∀ a, (![0, 0] : Fin 2 → Nat) a + S1216x256.size a ≤ S1216x256.size a
  h_S1216x256 : 0 < S1216x256.numel
  shapeCasts_S1216x256_S1216x256 : S1216x256.ShapeCasts S1216x256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  slices_S2048x1216_o0_0_S2048x64 : S2048x1216.Slices ![0, 0] S2048x64
  natLt_1_32 : 1 < 32
  broadcasts_S2048x1_S2048x64 : S2048x1.Broadcasts S2048x64
  reduces_S2048x64_S2048 : S2048x64.Reduces [1] S2048
  shapeCasts_S2048_S2048x1 : S2048.ShapeCasts S2048x1
  slices_S2048x1216_o0_64_S2048x64 : S2048x1216.Slices ![0, 64] S2048x64
  slices_S2048x1216_o0_128_S2048x64 : S2048x1216.Slices ![0, 128] S2048x64
  slices_S2048x1216_o0_192_S2048x64 : S2048x1216.Slices ![0, 192] S2048x64
  slices_S2048x1216_o0_256_S2048x64 : S2048x1216.Slices ![0, 256] S2048x64
  slices_S2048x1216_o0_320_S2048x64 : S2048x1216.Slices ![0, 320] S2048x64
  slices_S2048x1216_o0_384_S2048x64 : S2048x1216.Slices ![0, 384] S2048x64
  slices_S2048x1216_o0_448_S2048x64 : S2048x1216.Slices ![0, 448] S2048x64
  slices_S2048x1216_o0_512_S2048x64 : S2048x1216.Slices ![0, 512] S2048x64
  slices_S2048x1216_o0_576_S2048x64 : S2048x1216.Slices ![0, 576] S2048x64
  slices_S2048x1216_o0_640_S2048x64 : S2048x1216.Slices ![0, 640] S2048x64
  slices_S2048x1216_o0_704_S2048x64 : S2048x1216.Slices ![0, 704] S2048x64
  slices_S2048x1216_o0_768_S2048x64 : S2048x1216.Slices ![0, 768] S2048x64
  slices_S2048x1216_o0_832_S2048x64 : S2048x1216.Slices ![0, 832] S2048x64
  slices_S2048x1216_o0_896_S2048x64 : S2048x1216.Slices ![0, 896] S2048x64
  slices_S2048x1216_o0_960_S2048x64 : S2048x1216.Slices ![0, 960] S2048x64
  slices_S2048x1216_o0_1024_S2048x64 : S2048x1216.Slices ![0, 1024] S2048x64
  slices_S2048x1216_o0_1088_S2048x64 : S2048x1216.Slices ![0, 1088] S2048x64
  slices_S2048x1216_o0_1152_S2048x64 : S2048x1216.Slices ![0, 1152] S2048x64
  reduces_S2048x1_S1 : S2048x1.Reduces [0] S1
  shapeCasts_S1_S1x1 : S1.ShapeCasts S1x1
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S32x8x128_S32x1x1_0_0_0 : S32x8x128.Slices ![0, 0, 0] S32x1x1
  shapeCasts_S32x1x1_S32 : S32x1x1.ShapeCasts S32
  reducesTo_S32_S_d0 : S32.ReducesTo [0] S_
  h_S_ : 0 < S_.numel
  dot_S256x2048_S1216x256_S2048x1216_0_1_1_0_n_n_wf : DotDims.WF S256x2048 S1216x256 S2048x1216 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x16x128.size a ≤ S4x256x128x128.size a
  hwx0_0 : ∀ i : grid0.Coords, EltTy.bits .f32 = 32 ∨ (Rect.block (s := S4x256x128x128) S1x256x16x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1216x256.size a ≤ S1216x256.size a
  hwx0_1 : ∀ i : grid0.Coords, EltTy.bits .bf16 = 32 ∨ (Rect.block (s := S1216x256) S1216x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S65536x1.size a
  hwx0_2 : ∀ i : grid0.Coords, EltTy.bits .i32 = 32 ∨ (Rect.block (s := S65536x1) S2048x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S32x8x128.size a
  hwx0_3 : ∀ i : grid0.Coords, EltTy.bits .f32 = 32 ∨ (Rect.block (s := S32x8x128) S1x8x128.size (cc0_transform_3 i) (hinb0_3 i)).WholeWords (EltTy.packing .f32)

variable [Facts₀]

def dot_S256x2048_S1216x256_S2048x1216_0_1_1_0_n_n : DotDims S256x2048 S1216x256 S2048x1216 where
  lhsContracting := [0]
  rhsContracting := [1]
  lhsNonContracting := [1]
  rhsNonContracting := [0]
  lhsBatch := []
  rhsBatch := []
  wf := dot_S256x2048_S1216x256_S2048x1216_0_1_1_0_n_n_wf

abbrev win0_0 : Pipeline.Window sig grid0 :=
  Pipeline.Window.ofSpec (Memref.whole main_arg0) S1x256x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1216x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x256x128x128 : Shape := ⟨4, ![4, 256, 128, 128]⟩
abbrev S4x128x128 : Shape := ⟨3, ![4, 128, 128]⟩
abbrev S19x64x256 : Shape := ⟨3, ![19, 64, 256]⟩
abbrev S4x128x128x256 : Shape := ⟨4, ![4, 128, 128, 256]⟩
abbrev S65536x256 : Shape := ⟨2, ![65536, 256]⟩
abbrev S65536 : Shape := ⟨1, ![65536]⟩
abbrev S65536x19x64 : Shape := ⟨3, ![65536, 19, 64]⟩
abbrev S_ : Shape := ⟨0, ![]⟩
abbrev S65536x1 : Shape := ⟨2, ![65536, 1]⟩
abbrev S65536x2 : Shape := ⟨2, ![65536, 2]⟩
abbrev S65536x64 : Shape := ⟨2, ![65536, 64]⟩
abbrev S65536x19 : Shape := ⟨2, ![65536, 19]⟩
abbrev S1x19 : Shape := ⟨2, ![1, 19]⟩

abbrev nBuf : Space → Nat
  | .hbm => 63
  | .vmem => 0
  | .smem => 0
  | _ => 0

abbrev bufTy : (tb : Table) → Fin (tcTables nBuf tb) → BufTy
  | .hbm, ⟨0, _⟩ => ⟨S4x256x128x128, .f32⟩
  | .hbm, ⟨1, _⟩ => ⟨S4x128x128, .i32⟩
  | .hbm, ⟨2, _⟩ => ⟨S19x64x256, .f32⟩
  | .hbm, ⟨3, _⟩ => ⟨S4x128x128x256, .f32⟩
  | .hbm, ⟨4, _⟩ => ⟨S65536x256, .f32⟩
  | .hbm, ⟨5, _⟩ => ⟨S65536, .i32⟩
  | .hbm, ⟨6, _⟩ => ⟨S65536x19x64, .f32⟩
  | .hbm, ⟨7, _⟩ => ⟨S_, .f32⟩
  | .hbm, ⟨8, _⟩ => ⟨S65536x19x64, .f32⟩
  | .hbm, ⟨9, _⟩ => ⟨S65536x19x64, .f32⟩
  | .hbm, ⟨10, _⟩ => ⟨S65536, .i32⟩
  | .hbm, ⟨11, _⟩ => ⟨S_, .i32⟩
  | .hbm, ⟨12, _⟩ => ⟨S65536, .i32⟩
  | .hbm, ⟨13, _⟩ => ⟨S65536, .i1⟩
  | .hbm, ⟨14, _⟩ => ⟨S_, .i32⟩
  | .hbm, ⟨15, _⟩ => ⟨S65536, .i32⟩
  | .hbm, ⟨16, _⟩ => ⟨S65536, .i32⟩
  | .hbm, ⟨17, _⟩ => ⟨S65536, .i32⟩
  | .hbm, ⟨18, _⟩ => ⟨S_, .i32⟩
  | .hbm, ⟨19, _⟩ => ⟨S65536, .i32⟩
  | .hbm, ⟨20, _⟩ => ⟨S65536, .i1⟩
  | .hbm, ⟨21, _⟩ => ⟨S_, .i32⟩
  | .hbm, ⟨22, _⟩ => ⟨S65536, .i32⟩
  | .hbm, ⟨23, _⟩ => ⟨S65536, .i32⟩
  | .hbm, ⟨24, _⟩ => ⟨S65536, .i32⟩
  | .hbm, ⟨25, _⟩ => ⟨S65536x1, .i32⟩
  | .hbm, ⟨26, _⟩ => ⟨S65536x1, .i32⟩
  | .hbm, ⟨27, _⟩ => ⟨S65536x2, .i32⟩
  | .hbm, ⟨28, _⟩ => ⟨S65536x64, .f32⟩
  | .hbm, ⟨29, _⟩ => ⟨S_, .f32⟩
  | .hbm, ⟨30, _⟩ => ⟨S65536x19, .f32⟩
  | .hbm, ⟨31, _⟩ => ⟨S_, .f32⟩
  | .hbm, ⟨32, _⟩ => ⟨S65536x19, .f32⟩
  | .hbm, ⟨33, _⟩ => ⟨S65536x19, .f32⟩
  | .hbm, ⟨34, _⟩ => ⟨S65536x1, .i32⟩
  | .hbm, ⟨35, _⟩ => ⟨S1x19, .i32⟩
  | .hbm, ⟨36, _⟩ => ⟨S65536x19, .i32⟩
  | .hbm, ⟨37, _⟩ => ⟨S65536x19, .i32⟩
  | .hbm, ⟨38, _⟩ => ⟨S65536x19, .i1⟩
  | .hbm, ⟨39, _⟩ => ⟨S65536x19, .f32⟩
  | .hbm, ⟨40, _⟩ => ⟨S65536x19, .f32⟩
  | .hbm, ⟨41, _⟩ => ⟨S_, .f32⟩
  | .hbm, ⟨42, _⟩ => ⟨S65536x19, .f32⟩
  | .hbm, ⟨43, _⟩ => ⟨S65536x19, .f32⟩
  | .hbm, ⟨44, _⟩ => ⟨S65536x19, .f32⟩
  | .hbm, ⟨45, _⟩ => ⟨S_, .f32⟩
  | .hbm, ⟨46, _⟩ => ⟨S65536, .f32⟩
  | .hbm, ⟨47, _⟩ => ⟨S65536x1, .f32⟩
  | .hbm, ⟨48, _⟩ => ⟨S65536x64, .f32⟩
  | .hbm, ⟨49, _⟩ => ⟨S65536x64, .f32⟩
  | .hbm, ⟨50, _⟩ => ⟨S65536x64, .f32⟩
  | .hbm, ⟨51, _⟩ => ⟨S65536x64, .f32⟩
  | .hbm, ⟨52, _⟩ => ⟨S65536x64, .f32⟩
  | .hbm, ⟨53, _⟩ => ⟨S_, .f32⟩
  | .hbm, ⟨54, _⟩ => ⟨S65536, .f32⟩
  | .hbm, ⟨55, _⟩ => ⟨S_, .f32⟩
  | .hbm, ⟨56, _⟩ => ⟨S65536, .f32⟩
  | .hbm, ⟨57, _⟩ => ⟨S65536, .f32⟩
  | .hbm, ⟨58, _⟩ => ⟨S65536, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S4x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩

abbrev nD : Nat := 1
abbrev τ : Topo := Topo.v7x

variable {F : FTy → Type} [FloatOps F]

class Facts₀ : Prop where
  transposes_S4x256x128x128_S4x128x128x256_0_2_3_1 : S4x256x128x128.Transposes [0, 2, 3, 1] S4x128x128x256
  shapeCasts_S4x128x128x256_S65536x256 : S4x128x128x256.ShapeCasts S65536x256
  shapeCasts_S4x128x128_S65536 : S4x128x128.ShapeCasts S65536
  bcast_S_S65536x19x64 : S_.BroadcastsInDim S65536x19x64 (![] : Fin 0 → Fin S65536x19x64.rank)
  bcast_S_S65536 : S_.BroadcastsInDim S65536 (![] : Fin 0 → Fin S65536.rank)
  bcast_S65536_S65536x1_0 : S65536.BroadcastsInDim S65536x1 (![0] : Fin 1 → Fin S65536x1.rank)
  concatenates_S65536x1_S65536x1_S65536x2_d1 : Shape.Concatenates [S65536x1, S65536x1] S65536x2 1
  reducesTo_S65536x19x64_S65536x19_d2 : S65536x19x64.ReducesTo [2] S65536x19
  h_S_ : 0 < S_.numel
  bcast_S_S65536x19 : S_.BroadcastsInDim S65536x19 (![] : Fin 0 → Fin S65536x19.rank)
  bcast_S65536x1_S65536x19_0_1 : S65536x1.BroadcastsInDim S65536x19 (![0, 1] : Fin 2 → Fin S65536x19.rank)
  bcast_S1x19_S65536x19_0_1 : S1x19.BroadcastsInDim S65536x19 (![0, 1] : Fin 2 → Fin S65536x19.rank)
  reducesTo_S65536x19_S65536_d1 : S65536x19.ReducesTo [1] S65536
  bcast_S65536x1_S65536x64_0_1 : S65536x1.BroadcastsInDim S65536x64 (![0, 1] : Fin 2 → Fin S65536x64.rank)
  reducesTo_S65536x64_S65536_d1 : S65536x64.ReducesTo [1] S65536
  reducesTo_S65536_S_d0 : S65536.ReducesTo [0] S_
  dot_S65536x256_S19x64x256_S65536x19x64_1_2_0_01_n_n_wf : DotDims.WF S65536x256 S19x64x256 S65536x19x64 [1] [2] [0] [0, 1] [] []
  gather_S65536x19x64_S65536x2_S65536x64_1_01_n_n_01_1_1164_wf : GatherDims.WF S65536x19x64 S65536x2 S65536x64 [1] [0, 1] [] [0, 1] [] 1 ![1, 1, 64]

variable [Facts₀]

def dot_S65536x256_S19x64x256_S65536x19x64_1_2_0_01_n_n : DotDims S65536x256 S19x64x256 S65536x19x64 where
  lhsContracting := [1]
  rhsContracting := [2]
  lhsNonContracting := [0]
  rhsNonContracting := [0, 1]
  lhsBatch := []
  rhsBatch := []
  wf := dot_S65536x256_S19x64x256_S65536x19x64_1_2_0_01_n_n_wf
def gather_S65536x19x64_S65536x2_S65536x64_1_01_n_n_01_1_1164 : GatherDims S65536x19x64 S65536x2 S65536x64 where
  offsetDims := [1]
  collapsedSliceDims := [0, 1]
  operandBatchingDims := []
  startIndicesBatchingDims := []
  startIndexMap := [0, 1]
  indexVectorDim := 1
  sliceSizes := ![1, 1, 64]
  wf := gather_S65536x19x64_S65536x2_S65536x64_1_01_n_n_01_1_1164_wf

class Facts : Prop extends Facts₀ where

variable [Facts]
-- ==== Proof.Spec.lean ====
/-
  The loss both programs compute, as one real number of the three arrays.

  A pixel is `n < 65536 = 4·128·128`: image `n / 16384`, row `n / 128 % 128`, column `n % 128`.
  Its feature vector has 256 channels, the bank 19 classes of 64 entries of 256 channels, its
  label is a class. With `s k j` the pixel's similarity to entry `j` of class `k` (the channel dot
  product over 100) and `l` its label,

    sneg    = Σ_k exp(mean_j s k j) · (1 − [l = k]),
    pixLoss = −( Σ_j log( exp(s l j) / (exp(s l j) + sneg) ) ) / 64,

  and the loss is the mean of `pixLoss` over the 65536 pixels.
-/
import Idealize.ShloMosaic.PureOps.Ideal
import Idealize.ShloMosaic.Lib.ValueIdx

noncomputable section

open scoped BigOperators

namespace Cert.Spec

open Idealize.ShloMosaic Idealize.ShloMosaic.ValueIdx

/-- The feature array's shape, the label array's and the bank's. -/
abbrev SF : Shape := ⟨4, ![4, 256, 128, 128]⟩
abbrev SM : Shape := ⟨3, ![4, 128, 128]⟩
abbrev SB : Shape := ⟨3, ![19, 64, 256]⟩

/-- Channel `c` of pixel `n` in the feature array. -/
def fIdx (n : Fin 65536) (c : Fin 256) : SF.Idx :=
  ix4 (⟨n.val / 16384, by omega⟩ : Fin 4) c (⟨n.val / 128 % 128, by omega⟩ : Fin 128) (⟨n.val % 128, by omega⟩ : Fin 128)

/-- Pixel `n` in the label array. -/
def mIdx (n : Fin 65536) : SM.Idx :=
  ix3 (⟨n.val / 16384, by omega⟩ : Fin 4) (⟨n.val / 128 % 128, by omega⟩ : Fin 128) (⟨n.val % 128, by omega⟩ : Fin 128)

/-- The sum over the classes other than the pixel's own of exp of the class's mean similarity. -/
def sneg (s : Fin 19 → Fin 64 → ℝ) (l : Fin 19) : ℝ :=
  ∑ k : Fin 19, Real.exp ((∑ j : Fin 64, s k j) / 64) * (1 - if l = k then 1 else 0)

/-- One pixel's loss from its similarities `s` and its label `l`. -/
def pixLoss (s : Fin 19 → Fin 64 → ℝ) (l : Fin 19) : ℝ :=
  -((∑ j : Fin 64, Real.log (Real.exp (s l j) / (Real.exp (s l j) + sneg s l))) / 64)

/-- Pixel `n`'s similarity to entry `j` of class `k`. -/
def sim (fr : SF.Idx → ℝ) (br : SB.Idx → ℝ) (n : Fin 65536) (k : Fin 19) (j : Fin 64) : ℝ :=
  (∑ c : Fin 256, fr (fIdx n c) * br (ix3 k j c)) / 100

/-- Pixel `n`'s label as a class (the label word's value; below 19 under the precondition). -/
def labOf (msk : SM.Idx → BitVec 32) (n : Fin 65536) : Fin 19 :=
  ⟨(msk (mIdx n)).toNat % 19, Nat.mod_lt _ (by norm_num)⟩

/-- The loss: the mean over the pixels. -/
def total (feat : SF.Idx → EReal) (msk : SM.Idx → BitVec 32) (bank : SB.Idx → EReal) : ℝ :=
  (∑ n : Fin 65536, pixLoss (sim (fun i => (feat i).toReal) (fun i => (bank i).toReal) n) (labOf msk n)) / 65536

end Cert.Spec

end
-- ==== Proof.KernelBlocks.lean ====
/-
  The tile's three input blocks as entries of the argument arrays. Grid point t (of 32, image
  t / 8 and row band t % 8) stages: channels × 16 rows × 128 columns of image t / 8 starting at
  row 16·(t % 8) — pixel p of the tile is row p / 128, column p % 128 of the band, which is pixel
  2048·t + p of all 65536 —; the whole bank, reshaped from 19×64×256 to 1216×256 (row q is entry
  q % 64 of class q / 64; the format change before the reshape is the identity on extended reals);
  and rows 2048·t … 2048·t + 2047 of the label array flattened to a 65536×1 column.
-/
import proofs.«401502_j34634616275635_2_alg».proof.Proof.Gen.KernelIdeal.Frame
import proofs.«401502_j34634616275635_2_alg».proof.Proof.Spec
import Idealize.ShloMosaic.Lib.Pipeline.Value
import Idealize.ShloMosaic.Lib.ValueIdx
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ)

/-- A grid point is below 32. -/
theorem t_lt (t : Fin cfg0.N) : t.val < 32 := Nat.lt_of_lt_of_eq t.isLt N_0

/-- Pixel p of tile t among all the pixels. -/
def pix (t : Fin cfg0.N) (p : Fin 2048) : Fin 65536 := ⟨t.val * 2048 + p.val, by have := t_lt t; omega⟩

/-- The printed index maps, decided over the grid. -/
theorem idx_facts : ∀ t : Fin cfg0.N, win0_0.index t (0 : Fin 4) = t.val / 8 ∧ win0_0.index t (1 : Fin 4) = 0
    ∧ win0_0.index t (2 : Fin 4) = t.val % 8 ∧ win0_0.index t (3 : Fin 4) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, win0_0.index t (0 : Fin 4) = t.val / 8 ∧ win0_0.index t (1 : Fin 4) = 0
    ∧ win0_0.index t (2 : Fin 4) = t.val % 8 ∧ win0_0.index t (3 : Fin 4) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0)

/-- The label column the region finds: the label array flattened. -/
theorem V_labels (c : Dev nD) :
    (V m c main_v0 : S65536x1.Idx → BitVec 32) = shapeCast S65536x1 (m ((c : Thread nD τ).loc main_arg1)) shapeCasts_S4x128x128_S65536x1 := by
  show StableHlo.after hostOps0 (fun b => m (c, b)) (Proc.devRef .tc main_v0) = _
  after_results
  rfl

/-- The bank matrix the region finds: the bank, its format changed, reshaped to 1216 rows. -/
theorem V_bank (c : Dev nD) :
    (V m c main_v2 : S1216x256.Idx → EReal) = shapeCast S1216x256 (truncf (F := Ideal) .bf16 (m ((c : Thread nD τ).loc main_arg2)) bitsLt_bf16_f32) shapeCasts_S19x64x256_S1216x256 := by
  show StableHlo.after hostOps0 (fun b => m (c, b)) (Proc.devRef .tc main_v2) = _
  after_results
  rfl

/-- The feature block at grid point t, at channel ch of tile pixel p. -/
theorem feat_blk (c : Dev nD) (t : Fin cfg0.N) (ch : Fin 256) (p : Fin 2048) :
    (iblk m c 0 t : Vec Ideal S1x256x16x128 .f32) (ix4 (0 : Fin 1) ch (⟨p.val / 128, by omega⟩ : Fin 16) (⟨p.val % 128, by omega⟩ : Fin 128))
      = (m ((c : Thread nD τ).loc main_arg0) : S4x256x128x128.Idx → EReal) (Cert.Spec.fIdx (pix t p) ch) := by
  obtain ⟨e0, e1, e2, e3, -⟩ := idx_facts t
  have ht := t_lt t
  unfold iblk
  rw [View.read_apply]
  show V m c main_arg0 _ = _
  rw [V_main_arg0]
  congr 1
  funext a
  apply Fin.ext
  match a with
  | ⟨0, _⟩ => show win0_0.index t (0 : Fin 4) * 1 + 1 * 0 = (t.val * 2048 + p.val) / 16384; rw [e0]; omega
  | ⟨1, _⟩ => show win0_0.index t (1 : Fin 4) * 256 + 1 * ch.val = ch.val; rw [e1]; omega
  | ⟨2, _⟩ => show win0_0.index t (2 : Fin 4) * 16 + 1 * (p.val / 128) = (t.val * 2048 + p.val) / 128 % 128; rw [e2]; omega
  | ⟨3, _⟩ => show win0_0.index t (3 : Fin 4) * 128 + 1 * (p.val % 128) = (t.val * 2048 + p.val) % 128; rw [e3]; omega

/-- The bank block at any grid point, at row 64·k + j and channel ch: entry j of class k. -/
theorem bank_blk (c : Dev nD) (t : Fin cfg0.N) (k : Fin 19) (j : Fin 64) (ch : Fin 256) :
    (iblk m c 1 t : Vec Ideal S1216x256 .bf16) (ix2 (⟨64 * k.val + j.val, by omega⟩ : Fin 1216) ch)
      = (m ((c : Thread nD τ).loc main_arg2) : S19x64x256.Idx → EReal) (ix3 k j ch) := by
  obtain ⟨-, -, -, -, e0, e1, -⟩ := idx_facts t
  unfold iblk
  rw [View.read_apply]
  show V m c main_v2 _ = _
  rw [V_bank]
  refine (shapeCast_apply _ _ _ (ix3 k j ch) ?_).trans rfl
  rw [Shape.rowMajor_val_three, Shape.rowMajor_val_two]
  show ((k.val * 64 + j.val) * 256 + ch.val) = (win0_1.index t (0 : Fin 2) * 1216 + 1 * (64 * k.val + j.val)) * 256 + (win0_1.index t (1 : Fin 2) * 256 + 1 * ch.val)
  rw [e0, e1]; omega

/-- The label block at grid point t, at tile pixel p. -/
theorem label_blk (c : Dev nD) (t : Fin cfg0.N) (p : Fin 2048) :
    (iblk m c 2 t : Vec Ideal S2048x1 .i32) (ix2 p (0 : Fin 1))
      = (m ((c : Thread nD τ).loc main_arg1) : S4x128x128.Idx → BitVec 32) (Cert.Spec.mIdx (pix t p)) := by
  obtain ⟨-, -, -, -, -, -, e0, e1, -⟩ := idx_facts t
  have ht := t_lt t
  unfold iblk
  rw [View.read_apply]
  show V m c main_v0 _ = _
  rw [V_labels]
  refine shapeCast_apply _ _ _ (Cert.Spec.mIdx (pix t p)) ?_
  rw [Shape.rowMajor_val_three, Shape.rowMajor_val_two]
  show (((t.val * 2048 + p.val) / 16384 * 128 + (t.val * 2048 + p.val) / 128 % 128) * 128 + (t.val * 2048 + p.val) % 128)
    = (win0_2.index t (0 : Fin 2) * 2048 + 1 * p.val) * 1 + (win0_2.index t (1 : Fin 2) * 1 + 1 * 0)
  rw [e0, e1]; omega

end Cert.KernelIdeal.KValue

end
-- ==== Proof.BodyShape.lean ====
/-
  The tile body as a recurrence. One grid step holds a tile of 2048 pixels. With `S` the tile's
  similarity matrix (2048 pixels by 19·64 bank entries, the 64 entries of class `k` in columns
  `64·k … 64·k+63`) and `mk` the tile's column of labels, the body runs the nineteen classes in
  order and carries two accumulators: `posFold`, the sum over the classes done so far of the class's
  64 columns times the pixel's indicator "my label is this class", and `snegFold`, the sum over the
  classes done so far of exp(mean of the class's 64 columns) times one minus that indicator. After
  the nineteenth class the body takes, per pixel, the mean over the 64 entries of
  −log(exp(pos) / (exp(pos) + sneg)), adds the 2048 pixels up, and splats the sum over the
  tile's 8×128 output block. `bodyFn` is that function of `mk` and `S`; `out0_3_eq` says the
  block the body stores is `bodyFn` of the loaded labels and of the similarity matrix of the
  loaded features and bank.
-/
import proofs.«401502_j34634616275635_2_alg».proof.Proof.Gen.KernelIdeal.Frame
import Idealize.ShloMosaic.Lib.Pipeline.Value

set_option maxRecDepth 16384

noncomputable section

namespace Cert.KernelIdeal.Body

open Cert.KernelIdeal Cert.KernelIdeal.Gen Idealize.ShloMosaic Idealize.ShloMosaic.TcCoe

variable {F : FTy → Type} [FloatOps F] [Named F]

/-- Columns `64·k … 64·k+63` lie inside the 1216 columns for each of the nineteen classes. -/
theorem slab_ok (k : ℕ) (hk : k < 19) : S2048x1216.Slices ![0, 64 * k] S2048x64 :=
  ⟨rfl, fun a => by
    match a with
    | ⟨0, _⟩ => show 0 + 2048 ≤ 2048; omega
    | ⟨1, _⟩ => show 64 * k + 64 ≤ 1216; omega⟩

/-- Class `k`'s 64 columns of the similarity matrix. -/
def slab (S : FVec F S2048x1216 .f32) (k : ℕ) (hk : k < 19) : FVec F S2048x64 .f32 :=
  extractStridedSlice S2048x64 ![0, 64 * k] S (slab_ok k hk)

/-- The indicator column of class `k`: 1.0 where the pixel's label is `k`, else 0.0. -/
def indV (mk : IVec S2048x1 32) (k : ℕ) : FVec F S2048x1 .f32 :=
  sitofp .f32 (extui 32 (cmpi .eq mk (broadcast S2048x1 (BitVec.ofNat 32 k))) natLt_1_32)

/-- exp of the mean of class `k`'s 64 columns, per pixel. -/
def expMean (S : FVec F S2048x1216 .f32) (k : ℕ) (hk : k < 19) : FVec F S2048x1 .f32 :=
  exp (divf (shapeCast S2048x1 (multiReduction .add [1] S2048 (slab S k hk) 0x00000000#32 reduces_S2048x64_S2048 (.inl rfl) rfl) shapeCasts_S2048_S2048x1)
    (broadcast S2048x1 (Scalar.ofBits .f32 0x42800000#32)))

/-- The positive accumulator after the first `K` classes. -/
def posFold (mk : IVec S2048x1 32) (S : FVec F S2048x1216 .f32) : (K : ℕ) → K ≤ 19 → FVec F S2048x64 .f32
  | 0, _ => broadcast S2048x64 (Scalar.ofBits .f32 0x00000000#32)
  | K + 1, h => addf (posFold mk S K (by omega))
      (mulf (slab S K (by omega)) (broadcastTo S2048x64 (indV (F := F) mk K) broadcasts_S2048x1_S2048x64))

/-- The negative accumulator after the first `K` classes. -/
def snegFold (mk : IVec S2048x1 32) (S : FVec F S2048x1216 .f32) : (K : ℕ) → K ≤ 19 → FVec F S2048x1 .f32
  | 0, _ => broadcast S2048x1 (Scalar.ofBits .f32 0x00000000#32)
  | K + 1, h => addf (snegFold mk S K (by omega))
      (mulf (expMean S K (by omega)) (subf (broadcast S2048x1 (Scalar.ofBits .f32 0x3F800000#32)) (indV (F := F) mk K)))

/-- Per pixel, the mean over the 64 entries of −log(exp(pos) / (exp(pos) + sneg)). -/
def pixCol (pos : FVec F S2048x64 .f32) (sn : FVec F S2048x1 .f32) : FVec F S2048x1 .f32 :=
  divf (shapeCast S2048x1 (multiReduction .add [1] S2048
      (subf (broadcast S2048x64 (Scalar.ofBits .f32 0x00000000#32))
        (log (divf (exp pos) (addf (exp pos) (broadcastTo S2048x64 sn broadcasts_S2048x1_S2048x64)))))
      0x00000000#32 reduces_S2048x64_S2048 (.inl rfl) rfl) shapeCasts_S2048_S2048x1)
    (broadcast S2048x1 (Scalar.ofBits .f32 0x42800000#32))

/-- The tile's sum of per-pixel values, splat over the 1×8×128 output block. -/
def splat (col : FVec F S2048x1 .f32) : FVec F S1x8x128 .f32 :=
  shapeCast S1x8x128 (broadcastTo S8x128 (shapeCast S1x1 (shapeCast S1x1
    (multiReduction .add [0] S1 col 0x00000000#32 reduces_S2048x1_S1 (.inl rfl) rfl) shapeCasts_S1_S1x1) shapeCasts_S1x1_S1x1)
    broadcasts_S1x1_S8x128) shapeCasts_S8x128_S1x8x128

/-- What one grid step stores, as a function of the tile's labels and similarity matrix. -/
def bodyFn (mk : IVec S2048x1 32) (S : FVec F S2048x1216 .f32) : FVec F S1x8x128 .f32 :=
  splat (pixCol (posFold mk S 19 (le_refl _)) (snegFold mk S 19 (le_refl _)))

theorem hz3 : (![0, 0, 0] : Fin 3 → Nat) = fun _ => 0 := funext fun a => by fin_cases a <;> rfl

/-- The block the body leaves in the output window is `bodyFn` of the loaded label column and of the
    similarity matrix of the loaded feature block and bank. -/
theorem out0_3_eq (x0 : Vec F S1x256x16x128 .f32) (x1 : Vec F S1216x256 .bf16) (x2 : Vec F S2048x1 .i32) :
    out0_3 x0 x1 x2 = bodyFn (k0_pay2 (View.ld x2 r0_2)) (k0_pay3 (View.ld x0 r0_0) (View.ld x1 r0_1)) := by
  unfold out0_3
  rw [View.canon_unit_zero hz3]
  unfold k0_pay6 k0_pay9 k0_pay10 k0_pay4 k0_pay7 k0_pay5 k0_pay8
  generalize k0_pay3 (View.ld x0 r0_0) (View.ld x1 r0_1) = S
  generalize k0_pay2 (View.ld x2 r0_2) = mk
  rfl

end Cert.KernelIdeal.Body

end
-- ==== Proof.BodyFolds.lean ====
/-
  The two accumulators of the tile body after all nineteen classes, read per pixel. For a tile
  whose similarity matrix has real entries σ p k j (entry j of class k for pixel p, in column
  64·k + j) and whose labels are classes: the positive accumulator at (p, j) is σ p l j for the
  pixel's own label l (every other class's term is a product with the indicator 0), and the negative
  accumulator at p is the sum over the classes of exp(mean_j σ p k j)·(1 − [l = k]).
-/
import proofs.«401502_j34634616275635_2_alg».proof.Proof.BodyShape
import proofs.«401502_j34634616275635_2_alg».proof.Proof.Spec
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.TcCoe Idealize.ShloMosaic.ValueIdx

/-! ## The float constants of the body -/

/-- The pattern of 1.0 denotes 1. -/
theorem ofBits_one_f32 : Ideal.ofBits .f32 0x3F800000#32 = 1 := by
  simp [Ideal.ofBits, Ideal.ieee, -EReal.coe_mul]; norm_num

/-- The pattern of 64.0 denotes 64. -/
theorem ofBits_64_f32 : Ideal.ofBits .f32 0x42800000#32 = ((64 : ℝ) : EReal) := by
  simp [Ideal.ofBits, Ideal.ieee, -EReal.coe_mul]; norm_num

/-! ## The indicator of a class at a pixel -/

/-- A bit widened to a word and read signed is the bit. -/
theorem bit_toInt : ∀ b : BitVec 1, (b.setWidth 32).toInt = (b.toNat : ℤ) := by decide

/-- The indicator column of class k at pixel p is 1 when the pixel's label is k, else 0. -/
theorem indV_apply (mk : IVec S2048x1 32) (k : ℕ) (hk : k < 19) (p : Fin 2048) :
    indV (F := Ideal) mk k (ix2 p (0 : Fin 1))
      = if (mk (ix2 p (0 : Fin 1))).toNat = k then (1 : EReal) else 0 := by
  show ((((IntOp.cmpi .eq (mk (ix2 p (0 : Fin 1))) (BitVec.ofNat 32 k)).setWidth 32).toInt : ℝ) : EReal) = _
  rw [bit_toInt]
  have hc : IntOp.cmpi .eq (mk (ix2 p (0 : Fin 1))) (BitVec.ofNat 32 k)
      = BitVec.ofBool (mk (ix2 p (0 : Fin 1)) == BitVec.ofNat 32 k) := rfl
  rw [hc]
  by_cases h : (mk (ix2 p (0 : Fin 1))).toNat = k
  · have he : mk (ix2 p (0 : Fin 1)) = BitVec.ofNat 32 k := by
      apply BitVec.eq_of_toNat_eq
      rw [BitVec.toNat_ofNat, h]
      omega
    rw [if_pos h, he]
    simp
  · have he : ¬ mk (ix2 p (0 : Fin 1)) = BitVec.ofNat 32 k := by
      intro he
      apply h
      rw [he, BitVec.toNat_ofNat]
      omega
    rw [if_neg h]
    have hb : (mk (ix2 p (0 : Fin 1)) == BitVec.ofNat 32 k) = false := by
      simpa using he
    rw [hb]
    simp

/-! ## Layout reads -/

/-- Class k's slab at (p, j) is the similarity matrix at column 64·k + j. -/
theorem slab_apply (S : FVec Ideal S2048x1216 .f32) (k : ℕ) (hk : k < 19) (p : Fin 2048) (j : Fin 64) :
    slab S k hk (ix2 p j) = S (ix2 p (⟨64 * k + j.val, by omega⟩ : Fin 1216)) :=
  slice2_axis1_apply (64 * k) S (slab_ok k hk) p j _ rfl

/-- A 2048×1 column broadcast over 64 columns reads, at (p, j), the column at p. -/
theorem bcol_apply (v : FVec Ideal S2048x1 .f32) (p : Fin 2048) (j : Fin 64) :
    broadcastTo S2048x64 v broadcasts_S2048x1_S2048x64 (ix2 p j) = v (ix2 p (0 : Fin 1)) := by
  refine broadcastTo_apply v broadcasts_S2048x1_S2048x64 (ix2 p j) (ix2 p (0 : Fin 1)) fun ax => ?_
  match ax with
  | ⟨0, _⟩ =>
    show p.val = if (2048 : ℕ) = 1 then 0 else p.val
    rw [if_neg (by norm_num)]
  | ⟨1, _⟩ =>
    show (0 : ℕ) = if (1 : ℕ) = 1 then 0 else j.val
    rw [if_pos rfl]

/-- A 2048 vector cast to a 2048×1 column reads, at (p, 0), the vector at p. -/
theorem col_apply (v : FVec Ideal S2048 .f32) (p : Fin 2048) :
    shapeCast S2048x1 v shapeCasts_S2048_S2048x1 (ix2 p (0 : Fin 1)) = v (ix1 p) :=
  shapeCast_apply v shapeCasts_S2048_S2048x1 _ _ (by
    rw [Shape.rowMajor_val_two, Shape.rowMajor_val_one]
    show p.val = p.val * 1 + 0
    omega)

/-- The sum over the 64 columns of a 2048×64 matrix, at row p. -/
theorem rowsum_apply (X : FVec Ideal S2048x64 .f32) (hacc : (0x00000000#32 : BitVec 32) = 0x00000000#32) (p : Fin 2048) :
    multiReduction (F := Ideal) .add [1] S2048 X 0x00000000#32 reduces_S2048x64_S2048 (.inl rfl) hacc (ix1 p)
      = ∑ j : Fin 64, X (ix2 p j) := by
  refine (Ideal.multiReduction_add_single X 0x00000000#32 reduces_S2048x64_S2048 (.inl rfl) hacc (ix1 p)).trans ?_
  refine Finset.sum_congr rfl fun j _ => congrArg X ?_
  funext c
  match c with
  | ⟨0, _⟩ => exact Fin.ext rfl
  | ⟨1, _⟩ => exact Fin.ext rfl

/-! ## Finite sums of coercions -/

/-- The coercion of a finite sum of reals is the sum of the coercions. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-! ## exp of a class's mean at a pixel -/

/-- exp of the mean of class k's 64 similarities at pixel p. -/
theorem expMean_apply (S : FVec Ideal S2048x1216 .f32) (σ : Fin 2048 → Fin 19 → Fin 64 → ℝ)
    (hS : ∀ (p : Fin 2048) (k : Fin 19) (j : Fin 64), S (ix2 p (⟨64 * k.val + j.val, by omega⟩ : Fin 1216)) = ((σ p k j : ℝ) : EReal))
    (k : ℕ) (hk : k < 19) (p : Fin 2048) :
    expMean (F := Ideal) S k hk (ix2 p (0 : Fin 1))
      = ((Real.exp ((∑ j : Fin 64, σ p ⟨k, hk⟩ j) / 64) : ℝ) : EReal) := by
  have h1 : shapeCast S2048x1 (multiReduction (F := Ideal) .add [1] S2048 (slab S k hk) 0x00000000#32 reduces_S2048x64_S2048 (.inl rfl) rfl)
      shapeCasts_S2048_S2048x1 (ix2 p (0 : Fin 1)) = ((∑ j : Fin 64, σ p ⟨k, hk⟩ j : ℝ) : EReal) := by
    refine (col_apply _ p).trans ((rowsum_apply _ rfl p).trans ?_)
    rw [coe_sum]
    exact Finset.sum_congr rfl fun j _ => (slab_apply S k hk p j).trans (hS p ⟨k, hk⟩ j)
  show Ideal.exp (Ideal.div (shapeCast S2048x1 (multiReduction (F := Ideal) .add [1] S2048 (slab S k hk) 0x00000000#32 reduces_S2048x64_S2048 (.inl rfl) rfl)
      shapeCasts_S2048_S2048x1 (ix2 p (0 : Fin 1))) (Ideal.ofBits .f32 0x42800000#32)) = _
  rw [h1, ofBits_64_f32, Ideal.div_coe (by norm_num : (64 : ℝ) ≠ 0), ← EReal.coe_mul, Ideal.exp_coe]
  congr 2
  ring

/-! ## The positive accumulator -/

/-- After the first K classes the positive accumulator at (p, j) holds the pixel's own class's similarity if that class
    is among them, else 0. -/
theorem posFold_gen (mk : IVec S2048x1 32) (S : FVec Ideal S2048x1216 .f32) (σ : Fin 2048 → Fin 19 → Fin 64 → ℝ)
    (hS : ∀ (p : Fin 2048) (k : Fin 19) (j : Fin 64), S (ix2 p (⟨64 * k.val + j.val, by omega⟩ : Fin 1216)) = ((σ p k j : ℝ) : EReal))
    (p : Fin 2048) (j : Fin 64) (hl : (mk (ix2 p (0 : Fin 1))).toNat < 19) : ∀ (K : ℕ) (h : K ≤ 19),
    posFold (F := Ideal) mk S K h (ix2 p j)
      = if (mk (ix2 p (0 : Fin 1))).toNat < K
          then ((σ p ⟨(mk (ix2 p (0 : Fin 1))).toNat % 19, Nat.mod_lt _ (by norm_num)⟩ j : ℝ) : EReal) else 0
  | 0, _ => by
    show Ideal.ofBits .f32 0x00000000#32 = _
    rw [Ideal.ofBits_zero_f32, if_neg (Nat.not_lt_zero _)]
  | K + 1, h => by
    have ih := posFold_gen mk S σ hS p j hl K (by omega)
    have hs : slab S K (by omega) (ix2 p j) = ((σ p ⟨K, by omega⟩ j : ℝ) : EReal) :=
      (slab_apply S K (by omega) p j).trans (hS p ⟨K, by omega⟩ j)
    have hi : broadcastTo S2048x64 (indV (F := Ideal) mk K) broadcasts_S2048x1_S2048x64 (ix2 p j)
        = if (mk (ix2 p (0 : Fin 1))).toNat = K then (1 : EReal) else 0 :=
      (bcol_apply _ p j).trans (indV_apply mk K (by omega) p)
    show posFold (F := Ideal) mk S K _ (ix2 p j)
        + slab S K _ (ix2 p j) * broadcastTo S2048x64 (indV (F := Ideal) mk K) broadcasts_S2048x1_S2048x64 (ix2 p j) = _
    rw [ih, hs, hi]
    rcases Nat.lt_trichotomy (mk (ix2 p (0 : Fin 1))).toNat K with hlt | heq | hgt
    · rw [if_pos hlt, if_neg (by omega), if_pos (by omega), mul_zero, add_zero]
    · rw [if_neg (by omega), if_pos heq, if_pos (by omega), mul_one, zero_add]
      have hf : (⟨K, by omega⟩ : Fin 19) = ⟨(mk (ix2 p (0 : Fin 1))).toNat % 19, Nat.mod_lt _ (by norm_num)⟩ :=
        Fin.ext (by show K = (mk (ix2 p (0 : Fin 1))).toNat % 19; rw [Nat.mod_eq_of_lt hl, heq])
      rw [hf]
    · rw [if_neg (by omega), if_neg (by omega), if_neg (by omega), mul_zero, add_zero]

/-! ## The negative accumulator -/

/-- Class k's term of the negative sum for a pixel whose classes have similarities s and whose label is l
    (0 beyond the nineteen classes). -/
def negTerm (s : Fin 19 → Fin 64 → ℝ) (l : Fin 19) (k : ℕ) : ℝ :=
  if h : k < 19 then Real.exp ((∑ j : Fin 64, s ⟨k, h⟩ j) / 64) * (1 - if l = ⟨k, h⟩ then 1 else 0) else 0

/-- A real times one minus an indicator, as an extended real. -/
theorem coe_mul_one_sub_ite (e : ℝ) (c : Prop) [Decidable c] :
    (e : EReal) * (1 - if c then (1 : EReal) else 0) = ((e * (1 - if c then 1 else 0) : ℝ) : EReal) := by
  by_cases h : c
  · rw [if_pos h, if_pos h, ← EReal.coe_one, ← EReal.coe_sub, ← EReal.coe_mul]
  · rw [if_neg h, if_neg h, sub_zero, sub_zero, mul_one, mul_one]

/-- After the first K classes the negative accumulator at p is the sum of those classes' terms. -/
theorem snegFold_gen (mk : IVec S2048x1 32) (S : FVec Ideal S2048x1216 .f32) (σ : Fin 2048 → Fin 19 → Fin 64 → ℝ)
    (hS : ∀ (p : Fin 2048) (k : Fin 19) (j : Fin 64), S (ix2 p (⟨64 * k.val + j.val, by omega⟩ : Fin 1216)) = ((σ p k j : ℝ) : EReal))
    (p : Fin 2048) (hl : (mk (ix2 p (0 : Fin 1))).toNat < 19) : ∀ (K : ℕ) (h : K ≤ 19),
    snegFold (F := Ideal) mk S K h (ix2 p (0 : Fin 1))
      = ((∑ k ∈ Finset.range K,
            negTerm (σ p) ⟨(mk (ix2 p (0 : Fin 1))).toNat % 19, Nat.mod_lt _ (by norm_num)⟩ k : ℝ) : EReal)
  | 0, _ => by
    show Ideal.ofBits .f32 0x00000000#32 = _
    rw [Ideal.ofBits_zero_f32, Finset.range_zero, Finset.sum_empty, EReal.coe_zero]
  | K + 1, h => by
    have ih := snegFold_gen mk S σ hS p hl K (by omega)
    have he := expMean_apply S σ hS K (by omega) p
    have hi := indV_apply mk K (by omega) p
    show snegFold (F := Ideal) mk S K _ (ix2 p (0 : Fin 1))
        + expMean (F := Ideal) S K _ (ix2 p (0 : Fin 1))
          * (Ideal.ofBits .f32 0x3F800000#32 - indV (F := Ideal) mk K (ix2 p (0 : Fin 1))) = _
    rw [ih, he, hi, ofBits_one_f32, Finset.sum_range_succ, EReal.coe_add, coe_mul_one_sub_ite]
    congr 2
    unfold negTerm
    rw [dif_pos (by omega : K < 19)]
    by_cases heq : (mk (ix2 p (0 : Fin 1))).toNat = K
    · have hf : (⟨(mk (ix2 p (0 : Fin 1))).toNat % 19, Nat.mod_lt _ (by norm_num)⟩ : Fin 19) = ⟨K, by omega⟩ :=
        Fin.ext (by show (mk (ix2 p (0 : Fin 1))).toNat % 19 = K; rw [Nat.mod_eq_of_lt hl, heq])
      rw [if_pos heq, if_pos hf]
    · have hf : ¬ (⟨(mk (ix2 p (0 : Fin 1))).toNat % 19, Nat.mod_lt _ (by norm_num)⟩ : Fin 19) = ⟨K, by omega⟩ := by
        intro hf
        apply heq
        have := congrArg Fin.val hf
        rw [← Nat.mod_eq_of_lt hl]
        exact this
      rw [if_neg heq, if_neg hf]

/-- The positive accumulator after the nineteen classes, at pixel p and entry j: the pixel's own class's similarity. -/
theorem posFold_apply (mk : IVec S2048x1 32) (S : FVec Ideal S2048x1216 .f32) (σ : Fin 2048 → Fin 19 → Fin 64 → ℝ)
    (hS : ∀ (p : Fin 2048) (k : Fin 19) (j : Fin 64), S (ix2 p (⟨64 * k.val + j.val, by omega⟩ : Fin 1216)) = ((σ p k j : ℝ) : EReal))
    (hm : ∀ p : Fin 2048, (mk (ix2 p (0 : Fin 1))).toNat < 19) (p : Fin 2048) (j : Fin 64) :
    posFold (F := Ideal) mk S 19 (le_refl _) (ix2 p j)
      = ((σ p ⟨(mk (ix2 p (0 : Fin 1))).toNat % 19, Nat.mod_lt _ (by norm_num)⟩ j : ℝ) : EReal) :=
  (posFold_gen mk S σ hS p j (hm p) 19 (le_refl _)).trans (if_pos (hm p))

/-- The negative accumulator after the nineteen classes, at pixel p. -/
theorem snegFold_apply (mk : IVec S2048x1 32) (S : FVec Ideal S2048x1216 .f32) (σ : Fin 2048 → Fin 19 → Fin 64 → ℝ)
    (hS : ∀ (p : Fin 2048) (k : Fin 19) (j : Fin 64), S (ix2 p (⟨64 * k.val + j.val, by omega⟩ : Fin 1216)) = ((σ p k j : ℝ) : EReal))
    (hm : ∀ p : Fin 2048, (mk (ix2 p (0 : Fin 1))).toNat < 19) (p : Fin 2048) :
    snegFold (F := Ideal) mk S 19 (le_refl _) (ix2 p (0 : Fin 1))
      = ((Cert.Spec.sneg (σ p) ⟨(mk (ix2 p (0 : Fin 1))).toNat % 19, Nat.mod_lt _ (by norm_num)⟩ : ℝ) : EReal) := by
  rw [snegFold_gen mk S σ hS p (hm p) 19 (le_refl _)]
  refine congrArg (fun x : ℝ => (x : EReal)) ?_
  unfold Cert.Spec.sneg
  rw [← Fin.sum_univ_eq_sum_range
    (fun k => negTerm (σ p) ⟨(mk (ix2 p (0 : Fin 1))).toNat % 19, Nat.mod_lt _ (by norm_num)⟩ k) 19]
  refine Finset.sum_congr rfl fun k _ => ?_
  unfold negTerm
  rw [dif_pos k.isLt]

end Cert.KernelIdeal.Body

end
-- ==== Proof.BodyRows.lean ====
/-
  What one grid step stores, read per pixel. For a tile whose similarity matrix has real entries
  and whose labels are classes, the stored block holds, at every position, the sum over the tile's
  2048 pixels of the pixel's loss: the positive accumulator picks the 64 columns of the pixel's own
  class (the other classes' terms are products with 0), the negative accumulator is the sum over
  the other classes of exp(mean of the class's columns), and the mean of the 64 negated logs is the
  negated mean of the logs because every term is a real number.
-/
import proofs.«401502_j34634616275635_2_alg».proof.Proof.BodyShape
import proofs.«401502_j34634616275635_2_alg».proof.Proof.BodyFolds
import proofs.«401502_j34634616275635_2_alg».proof.Proof.Spec
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.TcCoe Idealize.ShloMosaic.ValueIdx

/-- The word 0x42800000 denotes the real number 64. -/
theorem rows_ofBits_64 : Ideal.ofBits .f32 0x42800000#32 = ((64 : ℝ) : EReal) := by
  simp [Ideal.ofBits, Ideal.ieee, -EReal.coe_mul]; norm_num

/-- The coercion of a finite sum of reals is the sum of the coercions. -/
theorem rows_coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The sum over the 64 columns, kept as a column: at pixel p it is the sum of row p. -/
theorem rows_laneSum_apply (v : FVec Ideal S2048x64 .f32) (p : Fin 2048) :
    shapeCast S2048x1 (multiReduction .add [1] S2048 v 0x00000000#32 reduces_S2048x64_S2048 (.inl rfl) rfl)
        shapeCasts_S2048_S2048x1 (ix2 p (0 : Fin 1))
      = ∑ j : Fin 64, v (ix2 p j) := by
  refine (shapeCast_apply _ shapeCasts_S2048_S2048x1 (ix2 p (0 : Fin 1)) (ix1 p) (by
    rw [Shape.rowMajor_val_one, Shape.rowMajor_val_two]
    show p.val = p.val * 1 + 0
    omega)).trans ?_
  refine (Ideal.multiReduction_add_single v 0x00000000#32 reduces_S2048x64_S2048 (.inl rfl) rfl (ix1 p)).trans ?_
  refine Finset.sum_congr rfl fun j _ => congrArg v ?_
  funext c
  match c with
  | ⟨0, _⟩ => rfl
  | ⟨1, _⟩ => rfl

/-- The sum of a column over the tile's 2048 pixels. -/
theorem rows_colSum_apply (col : FVec Ideal S2048x1 .f32) :
    multiReduction .add [0] S1 col 0x00000000#32 reduces_S2048x1_S1 (.inl rfl) rfl (ix1 (0 : Fin 1))
      = ∑ p : Fin 2048, col (ix2 p (0 : Fin 1)) := by
  refine (Ideal.multiReduction_add_single col 0x00000000#32 reduces_S2048x1_S1 (.inl rfl) rfl (ix1 (0 : Fin 1))).trans ?_
  refine Finset.sum_congr rfl fun p _ => congrArg col ?_
  funext c
  match c with
  | ⟨0, _⟩ => rfl
  | ⟨1, _⟩ => rfl

/-- One entry's term: for a real similarity x and a nonnegative real s, the extended-real computation
    0 − log(exp x / (exp x + s)) stays real, because exp x + s is positive and so is the ratio. -/
theorem rows_term (x s : ℝ) (hs : 0 ≤ s) :
    (0 : EReal) - Ideal.log (Ideal.div (Ideal.exp ((x : ℝ) : EReal)) (Ideal.exp ((x : ℝ) : EReal) + ((s : ℝ) : EReal)))
      = ((-(Real.log (Real.exp x / (Real.exp x + s))) : ℝ) : EReal) := by
  have he : 0 < Real.exp x := Real.exp_pos x
  have hd : 0 < Real.exp x + s := by linarith
  have hr : 0 < Real.exp x / (Real.exp x + s) := div_pos he hd
  rw [Ideal.exp_coe, ← EReal.coe_add, Ideal.div_coe (ne_of_gt hd), ← EReal.coe_mul, mul_one_div, Ideal.log_coe,
    if_neg (not_le.2 hr), zero_sub, ← EReal.coe_neg]

/-- Per pixel: where the positive accumulator's row is real and the negative accumulator is a nonnegative real,
    the stored column holds the negated mean of the 64 logs. -/
theorem rows_pixCol_apply (pos : FVec Ideal S2048x64 .f32) (sn : FVec Ideal S2048x1 .f32) (p : Fin 2048)
    (a : Fin 64 → ℝ) (s : ℝ) (hs : 0 ≤ s)
    (hpos : ∀ j : Fin 64, pos (ix2 p j) = ((a j : ℝ) : EReal))
    (hsn : sn (ix2 p (0 : Fin 1)) = ((s : ℝ) : EReal)) :
    pixCol (F := Ideal) pos sn (ix2 p (0 : Fin 1))
      = ((-((∑ j : Fin 64, Real.log (Real.exp (a j) / (Real.exp (a j) + s))) / 64) : ℝ) : EReal) := by
  unfold pixCol
  rw [divf_apply, rows_laneSum_apply, broadcast_apply]
  have hterm : ∀ j : Fin 64,
      subf (broadcast S2048x64 (Scalar.ofBits (F := Ideal) .f32 0x00000000#32))
        (log (divf (exp pos) (addf (exp pos) (broadcastTo S2048x64 sn broadcasts_S2048x1_S2048x64)))) (ix2 p j)
        = ((-(Real.log (Real.exp (a j) / (Real.exp (a j) + s))) : ℝ) : EReal) := by
    intro j
    have hb : broadcastTo S2048x64 sn broadcasts_S2048x1_S2048x64 (ix2 p j) = sn (ix2 p (0 : Fin 1)) :=
      broadcastTo_apply sn broadcasts_S2048x1_S2048x64 (ix2 p j) (ix2 p (0 : Fin 1)) (fun c => by
        match c with
        | ⟨0, _⟩ => rfl
        | ⟨1, _⟩ => rfl)
    show Ideal.ofBits .f32 0x00000000#32
        - Ideal.log (Ideal.div (Ideal.exp (pos (ix2 p j)))
            (Ideal.exp (pos (ix2 p j)) + broadcastTo S2048x64 sn broadcasts_S2048x1_S2048x64 (ix2 p j))) = _
    rw [hb, hsn, hpos j, Ideal.ofBits_zero_f32]
    exact rows_term (a j) s hs
  rw [Finset.sum_congr rfl (fun j _ => hterm j), ← rows_coe_sum, Finset.sum_neg_distrib]
  show Ideal.div _ (Ideal.ofBits .f32 0x42800000#32) = _
  rw [rows_ofBits_64, Ideal.div_coe (by norm_num : (64 : ℝ) ≠ 0), ← EReal.coe_mul, mul_one_div, neg_div]

/-- The splat block at any position: the sum of the column over the tile's 2048 pixels. -/
theorem rows_splat_apply (col : FVec Ideal S2048x1 .f32) (y : S1x8x128.Idx) :
    splat (F := Ideal) col y = ∑ p : Fin 2048, col (ix2 p (0 : Fin 1)) := by
  rw [eq_ix3 y]
  unfold splat
  refine (shapeCast_ab_1ab_apply _ shapeCasts_S8x128_S1x8x128 (y 0) (y 1) (y 2)).trans ?_
  refine (broadcastTo_apply _ broadcasts_S1x1_S8x128 (ix2 (y 1) (y 2)) (ix2 (0 : Fin 1) (0 : Fin 1)) (fun c => by
    match c with
    | ⟨0, _⟩ => rfl
    | ⟨1, _⟩ => rfl)).trans ?_
  refine (shapeCast_apply _ shapeCasts_S1x1_S1x1 (ix2 (0 : Fin 1) (0 : Fin 1)) (ix2 (0 : Fin 1) (0 : Fin 1)) rfl).trans ?_
  refine (shapeCast_a_1a_apply _ shapeCasts_S1_S1x1 (0 : Fin 1) (0 : Fin 1)).trans ?_
  exact rows_colSum_apply col

/-- The negative term is a sum of products of an exponential with 0 or 1, so it is nonnegative. -/
theorem rows_sneg_nonneg (s : Fin 19 → Fin 64 → ℝ) (l : Fin 19) : 0 ≤ Cert.Spec.sneg s l := by
  unfold Cert.Spec.sneg
  refine Finset.sum_nonneg fun k _ => mul_nonneg (le_of_lt (Real.exp_pos _)) ?_
  split <;> norm_num

/-- The stored block at any position: the sum over the tile's pixels of the pixel's loss, for real
    similarities `σ p k j` (entry j of class k for pixel p sits in column 64·k + j) and labels below 19. -/
theorem bodyFn_apply (mk : IVec S2048x1 32) (S : FVec Ideal S2048x1216 .f32) (σ : Fin 2048 → Fin 19 → Fin 64 → ℝ)
    (hS : ∀ (p : Fin 2048) (k : Fin 19) (j : Fin 64), S (ix2 p (⟨64 * k.val + j.val, by omega⟩ : Fin 1216)) = ((σ p k j : ℝ) : EReal))
    (hm : ∀ p : Fin 2048, (mk (ix2 p (0 : Fin 1))).toNat < 19) (y : S1x8x128.Idx) :
    bodyFn (F := Ideal) mk S y
      = ((∑ p : Fin 2048, Cert.Spec.pixLoss (σ p) ⟨(mk (ix2 p (0 : Fin 1))).toNat % 19, Nat.mod_lt _ (by norm_num)⟩ : ℝ) : EReal) := by
  unfold bodyFn
  rw [rows_splat_apply, rows_coe_sum]
  refine Finset.sum_congr rfl fun p _ => ?_
  exact rows_pixCol_apply _ _ p _ _ (rows_sneg_nonneg (σ p) _)
    (fun j => posFold_apply mk S σ hS hm p j) (snegFold_apply mk S σ hS hm p)

end Cert.KernelIdeal.Body

end
-- ==== Proof.SimValue.lean ====
/-
  The tile's similarity matrix at an entry. The body reshapes the 256×16×128 feature block to
  256 channels by 2048 pixels (pixel p = 128·row + column), contracts the channel axis against the
  1216×256 bank block on the matrix unit into zeros, and scales by the named constant 1/100. At the
  ideal instance a change of float format is the identity, so entry (p, q) is the channel dot product
  of pixel p with bank row q, over 100.
-/
import proofs.«401502_j34634616275635_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.SimValue

open Cert.KernelIdeal Cert.KernelIdeal.Gen Idealize.ShloMosaic Idealize.ShloMosaic.TcCoe Idealize.ShloMosaic.ValueIdx

/-- The named constant of the scaling step denotes the rational 1/100. -/
theorem inv100 : Named.named (F := Ideal) Cert.KernelIdeal.κ "inv_100" (φ := .f32) 0x3C23D70A#32 = ((1 / 100 : ℝ) : EReal) :=
  IdealRules.named_const.ideal_named_scalar _ _ _ _ rfl

/-- The coercion of a finite real sum is the sum of the coercions. -/
theorem coe_sum {ι : Type} (s : Finset ι) (f : ι → ℝ) : ((∑ c ∈ s, f c : ℝ) : EReal) = ∑ c ∈ s, (f c : EReal) := by
  classical
  refine Finset.induction_on s ?_ ?_
  · simp
  · intro a s ha ih
    rw [Finset.sum_insert ha, Finset.sum_insert ha, EReal.coe_add, ih]

/-! The contraction's index maps, axis by axis. The left operand is channels × pixels and contracts its
    axis 0; the right operand is bank rows × channels and contracts its axis 1. So at entry (p, q) and
    channel k the left operand is read at (k, p) and the right one at (q, k). -/

/-- Left operand, axis 0 (contracted): the channel. -/
theorem lhs_0 (i : S2048x1216.Idx) (k : dot_S256x2048_S1216x256_S2048x1216_0_1_1_0_n_n.contr.Idx) :
    (dot_S256x2048_S1216x256_S2048x1216_0_1_1_0_n_n.lhsIdx i k 0).val = (k ⟨0, by decide⟩).val :=
  dot_S256x2048_S1216x256_S2048x1216_0_1_1_0_n_n.lhsIdx_val_of_single rfl i k
/-- Left operand, axis 1 (kept): the entry's pixel. -/
theorem lhs_1 (i : S2048x1216.Idx) (k : dot_S256x2048_S1216x256_S2048x1216_0_1_1_0_n_n.contr.Idx) :
    (dot_S256x2048_S1216x256_S2048x1216_0_1_1_0_n_n.lhsIdx i k 1).val = (i 0).val := by
  unfold DotDims.lhsIdx
  rw [dif_neg (show ¬(1 : Fin S256x2048.rank) ∈ dot_S256x2048_S1216x256_S2048x1216_0_1_1_0_n_n.lhsBatch by decide), dif_pos (show (1 : Fin S256x2048.rank) ∈ dot_S256x2048_S1216x256_S2048x1216_0_1_1_0_n_n.lhsNonContracting by decide)]
  rfl
/-- Right operand, axis 0 (kept): the entry's bank row. -/
theorem rhs_0 (i : S2048x1216.Idx) (k : dot_S256x2048_S1216x256_S2048x1216_0_1_1_0_n_n.contr.Idx) :
    (dot_S256x2048_S1216x256_S2048x1216_0_1_1_0_n_n.rhsIdx i k 0).val = (i 1).val := by
  unfold DotDims.rhsIdx
  rw [dif_neg (show ¬(0 : Fin S1216x256.rank) ∈ dot_S256x2048_S1216x256_S2048x1216_0_1_1_0_n_n.rhsBatch by decide), dif_pos (show (0 : Fin S1216x256.rank) ∈ dot_S256x2048_S1216x256_S2048x1216_0_1_1_0_n_n.rhsNonContracting by decide)]
  rfl
/-- Right operand, axis 1 (contracted): the channel. -/
theorem rhs_1 (i : S2048x1216.Idx) (k : dot_S256x2048_S1216x256_S2048x1216_0_1_1_0_n_n.contr.Idx) :
    (dot_S256x2048_S1216x256_S2048x1216_0_1_1_0_n_n.rhsIdx i k 1).val = (k ⟨0, by decide⟩).val :=
  dot_S256x2048_S1216x256_S2048x1216_0_1_1_0_n_n.rhsIdx_val_of_single rfl i k

/-- Entry (p, q) of the scaled product, over the extended reals and for any two blocks: the channel sum of
    the feature block at (0, c, p / 128, p % 128) times the bank block at (q, c), times 1/100. The two
    reshapes keep the row-major position: pixel p of the 2048 sits at row p / 128, column p % 128 of the
    16 × 128 plane, since (c·16 + p/128)·128 + p%128 = c·2048 + p; the leading unit axis contributes 0. -/
theorem pay3_apply (v0 : Vec Ideal S1x256x16x128 .f32) (v4 : Vec Ideal S1216x256 .bf16) (p : Fin 2048) (q : Fin 1216) :
    k0_pay3 (F := Ideal) v0 v4 (ix2 p q)
      = (∑ c : Fin 256, v0 (ix4 (0 : Fin 1) c (⟨p.val / 128, by omega⟩ : Fin 16) (⟨p.val % 128, by omega⟩ : Fin 128)) * v4 (ix2 q c))
          * ((1 / 100 : ℝ) : EReal) := by
  unfold k0_pay3
  refine (mulf_apply _ _ _).trans ?_
  rw [broadcast_apply, inv100]
  congr 1
  refine (Ideal.matmul_constant_zero_apply dot_S256x2048_S1216x256_S2048x1216_0_1_1_0_n_n none _ _ (ix2 p q)).trans ?_
  rw [← Equiv.sum_comp (contrEquiv1 dot_S256x2048_S1216x256_S2048x1216_0_1_1_0_n_n 256 rfl rfl).symm]
  refine Finset.sum_congr rfl fun c _ => ?_
  have hc := contrEquiv1_symm_val dot_S256x2048_S1216x256_S2048x1216_0_1_1_0_n_n 256 rfl rfl c
  congr 1
  · refine (shapeCast_apply _ shapeCasts_S256x16x128_S256x2048 _ (ix3 c (⟨p.val / 128, by omega⟩ : Fin 16) (⟨p.val % 128, by omega⟩ : Fin 128)) ?_).trans ?_
    · rw [Shape.rowMajor_val_three, Shape.rowMajor_val_two, lhs_0, lhs_1, hc]
      show (c.val * 16 + p.val / 128) * 128 + p.val % 128 = c.val * 2048 + p.val
      omega
    · refine (truncf_apply (ψ := .bf16) (shapeCast S256x16x128 v0 shapeCasts_S1x256x16x128_S256x16x128) bitsLt_bf16_f32 _).trans ?_
      refine shapeCast_apply v0 shapeCasts_S1x256x16x128_S256x16x128 _ _ ?_
      rw [Shape.rowMajor_val_four, Shape.rowMajor_val_three]
      show ((0 * 256 + c.val) * 16 + p.val / 128) * 128 + p.val % 128 = (c.val * 16 + p.val / 128) * 128 + p.val % 128
      omega
  · refine shapeCast_apply v4 shapeCasts_S1216x256_S1216x256 _ (ix2 q c) ?_
    rw [Shape.rowMajor_val_two, Shape.rowMajor_val_two, rhs_0, rhs_1, hc]

/-- The label column the body works on is the loaded column. -/
theorem labels_apply (x2 : Vec Ideal S2048x1 .i32) (i : S2048x1.Idx) :
    k0_pay2 (F := Ideal) (View.ld x2 r0_2) i = x2 i := by
  have hz : (![0, 0] : Fin 2 → Nat) = fun _ => 0 := by funext a; fin_cases a <;> rfl
  rw [View.ld_unit_zero (S := S2048x1) hz]
  unfold k0_pay2
  exact shapeCast_apply x2 shapeCasts_S2048x1_S2048x1 i i rfl

/-- Entry (p, q) of the tile's similarity matrix, for a feature block and a bank block of real entries. -/
theorem sim_apply (x0 : Vec Ideal S1x256x16x128 .f32) (x1 : Vec Ideal S1216x256 .bf16)
    (hx0 : ∀ i, x0 i = (((x0 i : EReal).toReal : ℝ) : EReal)) (hx1 : ∀ i, x1 i = (((x1 i : EReal).toReal : ℝ) : EReal))
    (p : Fin 2048) (q : Fin 1216) :
    k0_pay3 (F := Ideal) (View.ld x0 r0_0) (View.ld x1 r0_1) (ix2 p q)
      = (((∑ c : Fin 256, (x0 (ix4 (0 : Fin 1) c (⟨p.val / 128, by omega⟩ : Fin 16) (⟨p.val % 128, by omega⟩ : Fin 128)) : EReal).toReal
            * (x1 (ix2 q c) : EReal).toReal) / 100 : ℝ) : EReal) := by
  have hz4 : (![0, 0, 0, 0] : Fin 4 → Nat) = fun _ => 0 := by funext a; fin_cases a <;> rfl
  have hz2 : (![0, 0] : Fin 2 → Nat) = fun _ => 0 := by funext a; fin_cases a <;> rfl
  rw [View.ld_unit_zero (S := S1x256x16x128) hz4, View.ld_unit_zero (S := S1216x256) hz2, pay3_apply]
  have hsum : (∑ c : Fin 256, x0 (ix4 (0 : Fin 1) c (⟨p.val / 128, by omega⟩ : Fin 16) (⟨p.val % 128, by omega⟩ : Fin 128)) * x1 (ix2 q c))
      = ((∑ c : Fin 256, (x0 (ix4 (0 : Fin 1) c (⟨p.val / 128, by omega⟩ : Fin 16) (⟨p.val % 128, by omega⟩ : Fin 128)) : EReal).toReal
            * (x1 (ix2 q c) : EReal).toReal : ℝ) : EReal) := by
    rw [coe_sum]
    refine Finset.sum_congr rfl fun c _ => ?_
    rw [EReal.coe_mul, ← hx0, ← hx1]
  rw [hsum, ← EReal.coe_mul]
  congr 1
  ring

end Cert.KernelIdeal.SimValue

end
-- ==== Proof.KernelTile.lean ====
/-
  One grid step's stored block, and the output array after the region. Grid point t stores, at every
  position of its 1×8×128 block, the sum of the losses of the tile's 2048 pixels (pixels 2048·t …
  2048·t + 2047): the block's similarity matrix is the pixels' similarities to the bank entries and
  its label column the pixels' labels. The 32 blocks tile the 32×8×128 output array, block t being
  row t, so after the region the array holds tile (i 0)'s sum at every index i.
-/
import proofs.«401502_j34634616275635_2_alg».proof.Proof.KernelBlocks
import proofs.«401502_j34634616275635_2_alg».proof.Proof.BodyShape
import proofs.«401502_j34634616275635_2_alg».proof.Proof.BodyRows
import proofs.«401502_j34634616275635_2_alg».proof.Proof.SimValue
import proofs.«401502_j34634616275635_2_alg».proof.Proof.Spec
import Idealize.ShloMosaic.Lib.Pipeline.Value
import Idealize.ShloMosaic.Lib.ValueIdx

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The three argument arrays on core c. -/
abbrev feat (c : Dev nD) : S4x256x128x128.Idx → EReal := m ((c : Thread nD τ).loc main_arg0)
abbrev msk (c : Dev nD) : S4x128x128.Idx → BitVec 32 := m ((c : Thread nD τ).loc main_arg1)
abbrev bank (c : Dev nD) : S19x64x256.Idx → EReal := m ((c : Thread nD τ).loc main_arg2)

/-- Pixel n's loss from the three arrays. -/
def pixL (c : Dev nD) (n : Fin 65536) : ℝ :=
  Cert.Spec.pixLoss (Cert.Spec.sim (fun i => (feat m c i).toReal) (fun i => (bank m c i).toReal) n) (Cert.Spec.labOf (msk m c) n)

/-- The sum of the losses of tile n's pixels (0 past the last tile). -/
def tileL (c : Dev nD) (n : ℕ) : ℝ := if h : n < cfg0.N then ∑ p : Fin 2048, pixL m c (pix ⟨n, h⟩ p) else 0

theorem tileL_eq (c : Dev nD) (t : Fin cfg0.N) : tileL m c t.val = ∑ p : Fin 2048, pixL m c (pix t p) := by
  unfold tileL; rw [dif_pos t.isLt]

/-- What grid point t stores, at every position: the tile's sum of losses. -/
theorem out_tile (c : Dev nD) (hf : ∀ i, feat m c i = (((feat m c i).toReal : ℝ) : EReal))
    (hb : ∀ i, bank m c i = (((bank m c i).toReal : ℝ) : EReal)) (hm : ∀ i, (msk m c i).toNat < 19)
    (t : Fin cfg0.N) (y : S1x8x128.Idx) :
    out0_3 (iblk m c 0 t) (iblk m c 1 t) (iblk m c 2 t) y = ((tileL m c t.val : ℝ) : EReal) := by
  have hx0 : ∀ i, (iblk m c 0 t : Vec Ideal S1x256x16x128 .f32) i = ((((iblk m c 0 t : Vec Ideal S1x256x16x128 .f32) i : EReal).toReal : ℝ) : EReal) := by
    intro i
    unfold iblk
    rw [View.read_apply]
    show V m c main_arg0 _ = ((V m c main_arg0 _ : EReal).toReal : EReal)
    rw [V_main_arg0]
    exact hf _
  have hx1 : ∀ i, (iblk m c 1 t : Vec Ideal S1216x256 .bf16) i = ((((iblk m c 1 t : Vec Ideal S1216x256 .bf16) i : EReal).toReal : ℝ) : EReal) := by
    intro i
    unfold iblk
    rw [View.read_apply]
    show (V m c main_v2 : S1216x256.Idx → EReal) _ = (((V m c main_v2 : S1216x256.Idx → EReal) _ : EReal).toReal : EReal)
    rw [V_bank]
    unfold shapeCast
    exact hb _
  rw [Cert.KernelIdeal.Body.out0_3_eq]
  refine (Cert.KernelIdeal.Body.bodyFn_apply _ _
    (fun p k j => Cert.Spec.sim (fun i => (feat m c i).toReal) (fun i => (bank m c i).toReal) (pix t p) k j) ?_ ?_ y).trans ?_
  · intro p k j
    rw [Cert.KernelIdeal.SimValue.sim_apply _ _ hx0 hx1 p ⟨64 * k.val + j.val, by omega⟩]
    congr 1
    unfold Cert.Spec.sim
    congr 1
    refine Finset.sum_congr rfl fun ch _ => ?_
    rw [feat_blk m c t ch p, bank_blk m c t k j ch]
  · intro p
    rw [Cert.KernelIdeal.SimValue.labels_apply, label_blk m c t p]
    exact hm _
  · rw [tileL_eq]
    refine congrArg (fun x : ℝ => (x : EReal)) (Finset.sum_congr rfl fun p _ => ?_)
    have hl : (⟨(k0_pay2 (F := Ideal) (View.ld (iblk m c 2 t) r0_2) (ix2 p (0 : Fin 1))).toNat % 19, Nat.mod_lt _ (by norm_num)⟩ : Fin 19)
        = Cert.Spec.labOf (msk m c) (pix t p) := by
      apply Fin.ext
      show (k0_pay2 (F := Ideal) (View.ld (iblk m c 2 t) r0_2) (ix2 p (0 : Fin 1))).toNat % 19 = ((msk m c) (Cert.Spec.mIdx (pix t p))).toNat % 19
      rw [Cert.KernelIdeal.SimValue.labels_apply, label_blk m c t p]
    exact congrArg (Cert.Spec.pixLoss (Cert.Spec.sim (fun i => (feat m c i).toReal) (fun i => (bank m c i).toReal) (pix t p))) hl

/-- The output array after the region: tile (i 0)'s sum at every index i. -/
def G3 (c : Dev nD) : S32x8x128.Idx → EReal := fun i => ((tileL m c (i 0).val : ℝ) : EReal)

/-- What grid point t writes back is block t of that array. -/
theorem flushed_eq (c : Dev nD) (hf : ∀ i, feat m c i = (((feat m c i).toReal : ℝ) : EReal))
    (hb : ∀ i, bank m c i = (((bank m c i).toReal : ℝ) : EReal)) (hm : ∀ i, (msk m c i).toNat < 19) (t : Fin cfg0.N) :
    (dats m 0 c).flushed 3 t = ((cfg0.win 3).blk t).view.read (Elt Ideal) (G3 m c) := by
  obtain ⟨-, -, -, -, -, -, -, -, e0, -, -⟩ := idx_facts t
  show (cfg0.win 3).cut (grid0.coords t) ((dats m 0 c).after 3 t) = _
  rw [after0_3]
  funext j
  show out0_3 (iblk m c 0 t) (iblk m c 1 t) (iblk m c 2 t) j = G3 m c (((cfg0.win 3).blk t).view.emb j)
  rw [out_tile m c hf hb hm t j]
  unfold G3
  have h0 : ((((cfg0.win 3).blk t).view.emb j) 0).val = t.val := by
    show win0_3.index t (0 : Fin 3) * 1 + 1 * (j 0).val = t.val
    have : (j 0).val < 1 := (j 0).isLt
    rw [e0]; omega
  rw [h0]

/-- An index of the output array is in point t's block iff each coordinate is in the block's range. -/
theorem mem_blk3 (t : Fin cfg0.N) (i : S32x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v3).slice (win0_3.rect t)).set ↔ _
  rw [View.set_slice_whole, Rect.mem_set_unit]
  exact Iff.rfl

/-- The output array after the region. -/
theorem final3 (c : Dev nD) (hf : ∀ i, feat m c i = (((feat m c i).toReal : ℝ) : EReal))
    (hb : ∀ i, bank m c i = (((bank m c i).toReal : ℝ) : EReal)) (hm : ∀ i, (msk m c i).toNat < 19) :
    (dats m 0 c).arrAt 3 cfg0.N = G3 m c :=
  (dats m 0 c).arrAt_eq_of_cover 3 (G3 m c) (fun t _ => flushed_eq m c hf hb hm t) fun i => by
    have h0 : (i 0).val < 32 := (i 0).isLt
    have h1 : (i 1).val < 8 := (i 1).isLt
    have h2 : (i 2).val < 128 := (i 2).isLt
    refine ⟨⟨(i 0).val, Nat.lt_of_lt_of_eq h0 N_0.symm⟩, flush0_3 _, ?_⟩
    rw [mem_blk3]
    obtain ⟨-, -, -, -, -, -, -, -, e0, e1, e2⟩ := idx_facts ⟨(i 0).val, Nat.lt_of_lt_of_eq h0 N_0.symm⟩
    intro a
    match a with
    | ⟨0, _⟩ => show win0_3.index _ (0 : Fin 3) * 1 ≤ (i 0).val ∧ (i 0).val < win0_3.index _ (0 : Fin 3) * 1 + 1; rw [e0]; constructor <;> simp
    | ⟨1, _⟩ => show win0_3.index _ (1 : Fin 3) * 8 ≤ (i 1).val ∧ (i 1).val < win0_3.index _ (1 : Fin 3) * 8 + 8; rw [e1]; omega
    | ⟨2, _⟩ => show win0_3.index _ (2 : Fin 3) * 128 ≤ (i 2).val ∧ (i 2).val < win0_3.index _ (2 : Fin 3) * 128 + 128; rw [e2]; omega

end Cert.KernelIdeal.KValue

end
-- ==== Proof.SumTiles.lean ====
/-
  The 65536 pixels are 32 tiles of 2048 consecutive pixels: a sum over all pixels is the sum over the
  tiles of the sums over each tile's pixels.
-/
import Mathlib.Algebra.BigOperators.Fin
import Mathlib.Data.Real.Basic

noncomputable section

open scoped BigOperators

namespace Cert.SumTiles

/-- Pixel 2048·t + p runs over all of 0 … 65535 exactly once as t runs over 32 tiles and p over 2048. -/
theorem sum_tiles (f : Fin 65536 → ℝ) :
    ∑ t : Fin 32, ∑ p : Fin 2048, f ⟨t.val * 2048 + p.val, by omega⟩ = ∑ n : Fin 65536, f n := by
  -- (t, p) ↦ p + 2048·t is a bijection from 32 × 2048 onto the 65536 pixels
  rw [← Fintype.sum_prod_type']
  refine Fintype.sum_equiv (finProdFinEquiv.trans (finCongr (by norm_num : 32 * 2048 = 65536))) _ _ ?_
  rintro ⟨t, p⟩
  refine congrArg f (Fin.ext ?_)
  simp only [Equiv.trans_apply, finCongr_apply, Fin.coe_cast, finProdFinEquiv_apply_val]
  omega

end Cert.SumTiles

end
-- ==== Proof.RefGather.lean ====
/-
  The reference's row selection. The reference takes, for pixel n, row (n, label n) of the
  65536×19×64 similarity array: a gather whose start indices are the pairs (n, label n), each
  coordinate first wrapped if negative and then clamped into the array. For a pixel number below 65536
  and a label below 19 neither the wrap nor the clamp changes anything.
-/
import proofs.«401502_j34634616275635_2_alg».proof.Proof.Gen.ReferenceIdeal.Read
import proofs.«401502_j34634616275635_2_alg».proof.Proof.Spec
import Idealize.ShloMosaic.Lib.ValueIdx
import Idealize.ShloMosaic.Lib.StableHlo.Predicate

noncomputable section

open scoped BigOperators

namespace Cert.RefValue

open Cert.ReferenceIdeal Cert.ReferenceIdeal.Gen Cert.ReferenceIdeal.Read Idealize.ShloMosaic Idealize.ShloMosaic.TcCoe Idealize.ShloMosaic.ValueIdx

/-- The row gather read at (n, j). Its dimension numbers collapse the operand's first two axes and take both from the
    start index, so the result at (n, j) is the operand at (r, c, j), where r and c are the two components of start
    index n, each read as a signed integer and clamped into its axis: r into [0, 65535], c into [0, 18]. -/
theorem gather_rows_apply {α : Type} (x : S65536x19x64.Idx → α) (idx : IVec S65536x2 32) (n : Fin 65536) (j : Fin 64) :
    Host.gather gather_S65536x19x64_S65536x2_S65536x64_1_01_n_n_01_1_1164 x idx (ix2 n j)
      = x (ix3 (⟨min (idx (ix2 n (0 : Fin 2))).toInt.toNat 65535, by omega⟩ : Fin 65536)
              (⟨min (idx (ix2 n (1 : Fin 2))).toInt.toNat 18, by omega⟩ : Fin 19) j) := by
  unfold Host.gather
  congr 1
  funext a
  refine Fin.ext ?_
  match a with
  | ⟨0, _⟩ =>
    -- axis 0: named by the start index (component 0), collapsed, not batching
    show gather_S65536x19x64_S65536x2_S65536x64_1_01_n_n_01_1_1164.start (ix2 n j) idx 0
      + gather_S65536x19x64_S65536x2_S65536x64_1_01_n_n_01_1_1164.batchCoord (ix2 n j) 0
      + gather_S65536x19x64_S65536x2_S65536x64_1_01_n_n_01_1_1164.offCoord (ix2 n j) 0 = _
    rw [GatherDims.batchCoord_eq_zero _ _ _ List.not_mem_nil,
      GatherDims.offCoord_eq_zero _ _ _ (by decide)]
    simp only [Nat.add_zero]
    unfold GatherDims.start
    rw [dif_pos (show (0 : Fin 3) ∈ gather_S65536x19x64_S65536x2_S65536x64_1_01_n_n_01_1_1164.startIndexMap by decide)]
    have hsi : gather_S65536x19x64_S65536x2_S65536x64_1_01_n_n_01_1_1164.siIdx (ix2 n j)
        ⟨List.idxOf (0 : Fin 3) gather_S65536x19x64_S65536x2_S65536x64_1_01_n_n_01_1_1164.startIndexMap,
          List.idxOf_lt_length_iff.2
            (show (0 : Fin 3) ∈ gather_S65536x19x64_S65536x2_S65536x64_1_01_n_n_01_1_1164.startIndexMap by decide)⟩
        = ix2 n (0 : Fin 2) := by
      funext b; refine Fin.ext ?_
      match b with
      | ⟨0, _⟩ => rfl
      | ⟨1, _⟩ => rfl
    rw [hsi]
    rfl
  | ⟨1, _⟩ =>
    -- axis 1: named by the start index (component 1), collapsed, not batching
    show gather_S65536x19x64_S65536x2_S65536x64_1_01_n_n_01_1_1164.start (ix2 n j) idx 1
      + gather_S65536x19x64_S65536x2_S65536x64_1_01_n_n_01_1_1164.batchCoord (ix2 n j) 1
      + gather_S65536x19x64_S65536x2_S65536x64_1_01_n_n_01_1_1164.offCoord (ix2 n j) 1 = _
    rw [GatherDims.batchCoord_eq_zero _ _ _ List.not_mem_nil,
      GatherDims.offCoord_eq_zero _ _ _ (by decide)]
    simp only [Nat.add_zero]
    unfold GatherDims.start
    rw [dif_pos (show (1 : Fin 3) ∈ gather_S65536x19x64_S65536x2_S65536x64_1_01_n_n_01_1_1164.startIndexMap by decide)]
    have hsi : gather_S65536x19x64_S65536x2_S65536x64_1_01_n_n_01_1_1164.siIdx (ix2 n j)
        ⟨List.idxOf (1 : Fin 3) gather_S65536x19x64_S65536x2_S65536x64_1_01_n_n_01_1_1164.startIndexMap,
          List.idxOf_lt_length_iff.2
            (show (1 : Fin 3) ∈ gather_S65536x19x64_S65536x2_S65536x64_1_01_n_n_01_1_1164.startIndexMap by decide)⟩
        = ix2 n (1 : Fin 2) := by
      funext b; refine Fin.ext ?_
      match b with
      | ⟨0, _⟩ => rfl
      | ⟨1, _⟩ => rfl
    rw [hsi]
    rfl
  | ⟨2, _⟩ =>
    -- axis 2: the one kept axis, not named by the start index: the result's offset coordinate j
    show gather_S65536x19x64_S65536x2_S65536x64_1_01_n_n_01_1_1164.start (ix2 n j) idx 2
      + gather_S65536x19x64_S65536x2_S65536x64_1_01_n_n_01_1_1164.batchCoord (ix2 n j) 2
      + gather_S65536x19x64_S65536x2_S65536x64_1_01_n_n_01_1_1164.offCoord (ix2 n j) 2 = _
    rw [GatherDims.batchCoord_eq_zero _ _ _ List.not_mem_nil]
    unfold GatherDims.start
    rw [dif_neg (show (2 : Fin 3) ∉ gather_S65536x19x64_S65536x2_S65536x64_1_01_n_n_01_1_1164.startIndexMap by decide)]
    unfold GatherDims.offCoord
    rw [dif_pos (show (2 : Fin 3) ∈ gather_S65536x19x64_S65536x2_S65536x64_1_01_n_n_01_1_1164.sKept by decide)]
    simp only [Nat.add_zero, Nat.zero_add]
    rfl

/-- The reference's negative-index wrap, select(w < 0, w + c, w), leaves a word that is non-negative as a signed
    integer (its unsigned value below 2³¹) unchanged. -/
theorem wrap_of_nonneg (w c : BitVec 32) (hw : w.toNat < 2 ^ 31) :
    Scalar.select (IntOp.cmpi .slt w 0#32) (IntOp.addi w c) w = w := by
  have h : ¬ IntOp.cmpi .slt w 0#32 = 1#1 := fun e => by
    have := (Idealize.ShloMosaic.StableHlo.Predicate.slt_iff_toNat hw (by decide)).1 e
    simp at this
  unfold Scalar.select
  exact if_neg h

/-- Column 0 of the start indices at row n: the pixel number n (the iota, not wrapped since it is non-negative). -/
theorem startIdx_col0 (x1 : (⟨S4x128x128, .i32⟩ : BufTy).Contents (Elt Ideal)) (n : Fin 65536) :
    val_main_v19 (F := Ideal) x1 (ix2 n (0 : Fin 2)) = BitVec.ofNat 32 n.val := by
  have hn := n.isLt
  unfold val_main_v19
  rw [concatenate_pair_apply_left (t := S65536x2) (s₁ := S65536x1) (s₂ := S65536x1) (1 : Fin 2)
    (val_main_v17 (F := Ideal)) (val_main_v18 (F := Ideal) x1) concatenates_S65536x1_S65536x1_S65536x2_d1
    (ix2 n (0 : Fin 2)) rfl (ix2 n (0 : Fin 1)) (fun b => match b with | ⟨0, _⟩ => rfl | ⟨1, _⟩ => rfl)]
  rw [val_main_v17_apply, val_main_v11_apply, val_main_v8_apply, val_main_v10_apply, val_main_v7_apply, val_main_c_apply,
    val_main_v6_apply]
  show Scalar.select (IntOp.cmpi .slt (BitVec.ofNat 32 n.val) 0#32) (IntOp.addi (BitVec.ofNat 32 n.val) _) (BitVec.ofNat 32 n.val) = _
  exact wrap_of_nonneg _ _ (by rw [BitVec.toNat_ofNat]; omega)

/-- The reshape's un-flattening of pixel number n is the mask index (n / 16384, n / 128 mod 128, n mod 128). -/
theorem idx_main_v2_eq (n : Fin 65536) : idx_main_v2 (ix1 n) = Cert.Spec.mIdx n := by
  funext a
  refine Fin.ext ?_
  match a with
  | ⟨0, _⟩ => rfl
  | ⟨1, _⟩ => rfl
  | ⟨2, _⟩ => rfl

/-- Column 1 of the start indices at row n: pixel n's label word (not wrapped since it is non-negative). -/
theorem startIdx_col1 (x1 : (⟨S4x128x128, .i32⟩ : BufTy).Contents (Elt Ideal)) (hm : ∀ i, (x1 i).toNat < 19) (n : Fin 65536) :
    val_main_v19 (F := Ideal) x1 (ix2 n (1 : Fin 2)) = x1 (Cert.Spec.mIdx n) := by
  unfold val_main_v19
  rw [concatenate_pair_apply_right (t := S65536x2) (s₁ := S65536x1) (s₂ := S65536x1) (1 : Fin 2)
    (val_main_v17 (F := Ideal)) (val_main_v18 (F := Ideal) x1) concatenates_S65536x1_S65536x1_S65536x2_d1
    (ix2 n (1 : Fin 2)) rfl rfl (ix2 n (0 : Fin 1))
    (fun b hb => match b, hb with | ⟨0, _⟩, _ => rfl | ⟨1, _⟩, hb => absurd rfl hb) rfl]
  rw [val_main_v18_apply, val_main_v16_apply, val_main_v13_apply, val_main_v15_apply, val_main_v12_apply, val_main_c_1_apply,
    val_main_v2_apply]
  have hi : idx_main_v18 (ix2 n (0 : Fin 1)) = ix1 n := by
    funext a; refine Fin.ext ?_
    match a with
    | ⟨0, _⟩ => rfl
  rw [hi, idx_main_v2_eq]
  exact wrap_of_nonneg _ _ (by have := hm (Cert.Spec.mIdx n); omega)

/-- The gathered array at (n, j) is the similarity array at (n, label n, j), for labels below 19. -/
theorem gathered_apply (x0 : (⟨S4x256x128x128, .f32⟩ : BufTy).Contents (Elt Ideal)) (x1 : (⟨S4x128x128, .i32⟩ : BufTy).Contents (Elt Ideal))
    (x2 : (⟨S19x64x256, .f32⟩ : BufTy).Contents (Elt Ideal)) (hm : ∀ i, (x1 i).toNat < 19) (n : Fin 65536) (j : Fin 64) :
    val_main_v20 (F := Ideal) x0 x1 x2 (ix2 n j) = val_main_v5 (F := Ideal) x0 x2 (ix3 n (Cert.Spec.labOf x1 n) j) := by
  have hn := n.isLt
  have hl := hm (Cert.Spec.mIdx n)
  unfold val_main_v20
  rw [gather_rows_apply]
  refine congrArg _ (funext fun a => Fin.ext ?_)
  match a with
  | ⟨0, _⟩ =>
    -- the row: pixel number n, below 2³¹ so read signed as itself, and at most 65535 so the clamp keeps it
    show min (val_main_v19 (F := Ideal) x1 (ix2 n (0 : Fin 2))).toInt.toNat 65535 = n.val
    rw [startIdx_col0, Idealize.ShloMosaic.StableHlo.Predicate.toInt_ofNat_small _ (by omega), Int.toNat_natCast]
    omega
  | ⟨1, _⟩ =>
    -- the column: the label word, below 19 so read signed as itself, kept by the clamp, and its own residue mod 19
    show min (val_main_v19 (F := Ideal) x1 (ix2 n (1 : Fin 2))).toInt.toNat 18 = (x1 (Cert.Spec.mIdx n)).toNat % 19
    rw [startIdx_col1 x1 hm, Idealize.ShloMosaic.StableHlo.Predicate.toInt_eq_toNat_of_lt (by omega), Int.toNat_natCast,
      Nat.mod_eq_of_lt hl]
    omega
  | ⟨2, _⟩ => rfl

end Cert.RefValue

end
-- ==== Proof.RefValue.lean ====
/-
  The reference's result is the loss. Per pixel the reference forms the similarities (the channel
  dot product of the pixel's transposed feature row with each bank entry, over 100), selects its
  own class's 64 of them, sums over the classes exp(mean similarity) times one minus the one-hot row
  of the label, and takes minus the mean over the 64 entries of log(exp(pos)/(exp(pos) + sneg));
  the result is the sum over the pixels over 65536. For real inputs and labels below 19 every
  intermediate is a real number.
-/
import proofs.«401502_j34634616275635_2_alg».proof.Proof.RefGather
import proofs.«401502_j34634616275635_2_alg».proof.Proof.Gen.ReferenceIdeal.Read
import proofs.«401502_j34634616275635_2_alg».proof.Proof.Spec
import Idealize.ShloMosaic.Lib.ValueIdx
import Idealize.ShloMosaic.Lib.ValueIdxRank1
import Idealize.ShloMosaic.Lib.StableHlo.Predicate
import Idealize.ShloMosaic.PureOps.Ideal.Laws

noncomputable section

open scoped BigOperators

namespace Cert.RefValue

open Cert.ReferenceIdeal Cert.ReferenceIdeal.Gen Cert.ReferenceIdeal.Read Idealize.ShloMosaic Idealize.ShloMosaic.TcCoe Idealize.ShloMosaic.ValueIdx

/-- The pattern of 100.0 denotes the real 100. -/
theorem ofBits_100 : Ideal.ofBits .f32 0x42C80000#32 = ((100 : ℝ) : EReal) := by
  simp [Ideal.ofBits, Ideal.ieee, -EReal.coe_mul]; norm_num

/-- The pattern of 64.0 denotes the real 64. -/
theorem ofBits_64 : Ideal.ofBits .f32 0x42800000#32 = ((64 : ℝ) : EReal) := by
  simp [Ideal.ofBits, Ideal.ieee, -EReal.coe_mul]; norm_num

/-- The pattern of 1.0 denotes the real 1. -/
theorem ofBits_1 : Ideal.ofBits .f32 0x3F800000#32 = ((1 : ℝ) : EReal) := by
  simp [Ideal.ofBits, Ideal.ieee, -EReal.coe_mul]; norm_num

/-- The pattern of 65536.0 denotes the real 65536. -/
theorem ofBits_65536 : Ideal.ofBits .f32 0x47800000#32 = ((65536 : ℝ) : EReal) := by
  simp [Ideal.ofBits, Ideal.ieee, -EReal.coe_mul]; norm_num

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

/-- A real over a nonzero real, in the extended reals' division, is the real quotient. -/
theorem div_coe_coe (a : ℝ) {y : ℝ} (h : y ≠ 0) : Ideal.div ((a : ℝ) : EReal) ((y : ℝ) : EReal) = ((a / y : ℝ) : EReal) := by
  rw [Ideal.div_coe h, ← EReal.coe_mul, mul_one_div]

/-- Through the transpose and the reshape, row n and column c of the 65536×256 matrix is channel c of pixel n. -/
theorem feat_idx (n : Fin 65536) (k : Fin 19) (j : Fin 64) (c : Fin 256) :
    idx_main_v0 (idx_main_v1 (lidx_main_v3 (ix3 n k j) c)) = Cert.Spec.fIdx n c := by
  funext a
  refine Fin.ext ?_
  have hn := n.isLt
  have hc := c.isLt
  match a with
  | ⟨0, _⟩ => show (n.val * 256 + c.val) / 4194304 = n.val / 16384; omega
  | ⟨1, _⟩ => show (n.val * 256 + c.val) % 256 = c.val; omega
  | ⟨2, _⟩ => show (n.val * 256 + c.val) / 32768 % 128 = n.val / 128 % 128; omega
  | ⟨3, _⟩ => show (n.val * 256 + c.val) / 256 % 128 = n.val % 128; omega

/-- The bank's index the contraction reads at (n, k, j) and channel c is (k, j, c). -/
theorem bank_idx (n : Fin 65536) (k : Fin 19) (j : Fin 64) (c : Fin 256) :
    ridx_main_v3 (ix3 n k j) c = ix3 k j c := by
  funext a
  match a with
  | ⟨0, _⟩ => rfl
  | ⟨1, _⟩ => rfl
  | ⟨2, _⟩ => rfl

/-- The similarity array at (n, k, j) is the real similarity of pixel n to entry j of class k. -/
theorem sim_apply (x0 : (⟨S4x256x128x128, .f32⟩ : BufTy).Contents (Elt Ideal))
    (x2 : (⟨S19x64x256, .f32⟩ : BufTy).Contents (Elt Ideal))
    (hf : ∀ i, x0 i = (((x0 i : EReal).toReal : ℝ) : EReal)) (hb : ∀ i, x2 i = (((x2 i : EReal).toReal : ℝ) : EReal))
    (n : Fin 65536) (k : Fin 19) (j : Fin 64) :
    val_main_v5 (F := Ideal) x0 x2 (ix3 n k j)
      = ((Cert.Spec.sim (fun i => (x0 i : EReal).toReal) (fun i => (x2 i : EReal).toReal) n k j : ℝ) : EReal) := by
  rw [val_main_v5_apply, val_main_v3_apply, val_main_v4_apply, val_main_cst_apply]
  have hs : ∀ c : Fin 256, (val_main_v1 (F := Ideal) x0) (lidx_main_v3 (ix3 n k j) c) * x2 (ridx_main_v3 (ix3 n k j) c)
      = (((x0 (Cert.Spec.fIdx n c) : EReal).toReal * (x2 (ix3 k j c) : EReal).toReal : ℝ) : EReal) := by
    intro c
    rw [val_main_v1_apply, val_main_v0_apply, feat_idx, bank_idx, EReal.coe_mul, ← hf, ← hb]
  rw [Finset.sum_congr rfl (fun c _ => hs c), ← coe_sum]
  show Ideal.div _ (Ideal.ofBits .f32 0x42C80000#32) = _
  rw [ofBits_100, div_coe_coe _ (by norm_num)]
  rfl

/-- Through the two broadcasts and the reshape, row n of the label matrix is pixel n's label. -/
theorem lab_idx (n : Fin 65536) (k : Fin 19) :
    idx_main_v2 (idx_main_call0_v0 (idx_main_call0_v2 (ix2 n k))) = Cert.Spec.mIdx n := by
  funext a
  match a with
  | ⟨0, _⟩ => rfl
  | ⟨1, _⟩ => rfl
  | ⟨2, _⟩ => rfl

/-- The one-hot row of pixel n at class k is 1 when k is the pixel's label and 0 otherwise (labels below 19). -/
theorem onehot_apply (x1 : (⟨S4x128x128, .i32⟩ : BufTy).Contents (Elt Ideal)) (hm : ∀ i, (x1 i).toNat < 19)
    (n : Fin 65536) (k : Fin 19) :
    val_main_v24 (F := Ideal) x1 (ix2 n k) = (((if Cert.Spec.labOf x1 n = k then 1 else 0 : ℝ)) : EReal) := by
  rw [val_main_v24_apply, val_main_call0_v4_apply, val_main_call0_v2_apply, val_main_call0_v0_apply, val_main_v2_apply,
    val_main_call0_v3_apply, val_main_call0_v1_apply, lab_idx]
  show (((IntOp.cmpi .eq (x1 (Cert.Spec.mIdx n)) (BitVec.ofNat 32 k.val)).toNat : ℝ) : EReal) = _
  have hl := hm (Cert.Spec.mIdx n)
  have hk := k.isLt
  by_cases h : Cert.Spec.labOf x1 n = k
  · have hv : (x1 (Cert.Spec.mIdx n)).toNat % 19 = k.val := congrArg Fin.val h
    have he : x1 (Cert.Spec.mIdx n) = BitVec.ofNat 32 k.val := by
      apply BitVec.eq_of_toNat_eq
      rw [BitVec.toNat_ofNat]
      omega
    rw [if_pos h, StableHlo.Predicate.cmpi_eq_iff.mpr he]
    norm_num
  · have hne : ¬ x1 (Cert.Spec.mIdx n) = BitVec.ofNat 32 k.val := by
      intro he
      apply h
      apply Fin.ext
      show (x1 (Cert.Spec.mIdx n)).toNat % 19 = k.val
      rw [he, BitVec.toNat_ofNat]
      omega
    have hz : IntOp.cmpi .eq (x1 (Cert.Spec.mIdx n)) (BitVec.ofNat 32 k.val) = 0#1 :=
      eq_zero_of_ne_one (fun h1 => hne (StableHlo.Predicate.cmpi_eq_iff.mp h1))
    rw [if_neg h, hz]
    norm_num

/-- The real similarities of the two arrays' real parts. -/
abbrev simR (x0 : (⟨S4x256x128x128, .f32⟩ : BufTy).Contents (Elt Ideal)) (x2 : (⟨S19x64x256, .f32⟩ : BufTy).Contents (Elt Ideal)) :
    Fin 65536 → Fin 19 → Fin 64 → ℝ :=
  Cert.Spec.sim (fun i => (x0 i : EReal).toReal) (fun i => (x2 i : EReal).toReal)

/-- The class mean of the similarities at (n, k): the sum over the 64 entries over 64. -/
theorem mean_apply (x0 : (⟨S4x256x128x128, .f32⟩ : BufTy).Contents (Elt Ideal))
    (x2 : (⟨S19x64x256, .f32⟩ : BufTy).Contents (Elt Ideal))
    (hf : ∀ i, x0 i = (((x0 i : EReal).toReal : ℝ) : EReal)) (hb : ∀ i, x2 i = (((x2 i : EReal).toReal : ℝ) : EReal))
    (n : Fin 65536) (k : Fin 19) :
    val_main_v23 (F := Ideal) x0 x2 (ix2 n k) = (((∑ j : Fin 64, simR x0 x2 n k j) / 64 : ℝ) : EReal) := by
  rw [val_main_v23_apply, val_main_v21_apply, val_main_cst_3_apply, val_main_v22_apply, val_main_cst_4_apply]
  have hi : ∀ j : Fin 64, idx_main_v21 (ix2 n k) j = ix3 n k j := by
    intro j; funext a
    match a with
    | ⟨0, _⟩ => rfl
    | ⟨1, _⟩ => rfl
    | ⟨2, _⟩ => rfl
  have hs : ∀ j : Fin 64, (val_main_v5 (F := Ideal) x0 x2) (idx_main_v21 (ix2 n k) j) = ((simR x0 x2 n k j : ℝ) : EReal) := by
    intro j; rw [hi, sim_apply x0 x2 hf hb]
  rw [Finset.sum_congr rfl (fun j _ => hs j), ← coe_sum]
  show Ideal.div (Ideal.ofBits .f32 0x00000000#32 + _) (Ideal.ofBits .f32 0x42800000#32) = _
  rw [Ideal.ofBits_zero_f32, zero_add, ofBits_64, div_coe_coe _ (by norm_num)]

/-- The sum over the classes of exp(class mean) times one minus the one-hot entry is the real number `sneg`. -/
theorem sneg_apply (x0 : (⟨S4x256x128x128, .f32⟩ : BufTy).Contents (Elt Ideal)) (x1 : (⟨S4x128x128, .i32⟩ : BufTy).Contents (Elt Ideal))
    (x2 : (⟨S19x64x256, .f32⟩ : BufTy).Contents (Elt Ideal))
    (hf : ∀ i, x0 i = (((x0 i : EReal).toReal : ℝ) : EReal)) (hb : ∀ i, x2 i = (((x2 i : EReal).toReal : ℝ) : EReal))
    (hm : ∀ i, (x1 i).toNat < 19) (n : Fin 65536) :
    val_main_v29 (F := Ideal) x0 x1 x2 (ix1 n) = ((Cert.Spec.sneg (simR x0 x2 n) (Cert.Spec.labOf x1 n) : ℝ) : EReal) := by
  rw [val_main_v29_apply, val_main_cst_6_apply]
  have hi : ∀ k : Fin 19, idx_main_v29 (ix1 n) k = ix2 n k := by
    intro k; funext a
    match a with
    | ⟨0, _⟩ => rfl
    | ⟨1, _⟩ => rfl
  have hs : ∀ k : Fin 19, (val_main_v28 (F := Ideal) x0 x1 x2) (idx_main_v29 (ix1 n) k)
      = ((Real.exp ((∑ j : Fin 64, simR x0 x2 n k j) / 64) * (1 - if Cert.Spec.labOf x1 n = k then 1 else 0) : ℝ) : EReal) := by
    intro k
    rw [hi, val_main_v28_apply, val_main_v25_apply, val_main_v27_apply, val_main_v26_apply, val_main_cst_5_apply,
      mean_apply x0 x2 hf hb, onehot_apply x1 hm]
    rw [Ideal.mulf_def, Ideal.hostUnary_exp_def, Ideal.subf_def, Ideal.ofBits_def, Ideal.exp_coe, ofBits_1, ← EReal.coe_sub,
      ← EReal.coe_mul]
  rw [Finset.sum_congr rfl (fun k _ => hs k), ← coe_sum]
  show Ideal.ofBits .f32 0x00000000#32 + _ = _
  rw [Ideal.ofBits_zero_f32, zero_add]
  rfl

/-- `sneg` is a sum of nonnegative terms. -/
theorem sneg_nonneg (s : Fin 19 → Fin 64 → ℝ) (l : Fin 19) : 0 ≤ Cert.Spec.sneg s l := by
  unfold Cert.Spec.sneg
  refine Finset.sum_nonneg fun k _ => mul_nonneg (Real.exp_pos _).le ?_
  split_ifs <;> norm_num

/-- Pixel n's entry of the negated mean of the logarithms is the real number `pixLoss`: every ratio
    exp(pos)/(exp(pos) + sneg) is a positive real, so each logarithm is real. -/
theorem loss_apply (x0 : (⟨S4x256x128x128, .f32⟩ : BufTy).Contents (Elt Ideal)) (x1 : (⟨S4x128x128, .i32⟩ : BufTy).Contents (Elt Ideal))
    (x2 : (⟨S19x64x256, .f32⟩ : BufTy).Contents (Elt Ideal))
    (hf : ∀ i, x0 i = (((x0 i : EReal).toReal : ℝ) : EReal)) (hb : ∀ i, x2 i = (((x2 i : EReal).toReal : ℝ) : EReal))
    (hm : ∀ i, (x1 i).toNat < 19) (n : Fin 65536) :
    val_main_v39 (F := Ideal) x0 x1 x2 (ix1 n) = ((Cert.Spec.pixLoss (simR x0 x2 n) (Cert.Spec.labOf x1 n) : ℝ) : EReal) := by
  rw [val_main_v39_apply, val_main_v38_apply, val_main_v36_apply, val_main_cst_7_apply, val_main_v37_apply, val_main_cst_8_apply]
  have hi : ∀ j : Fin 64, idx_main_v36 (ix1 n) j = ix2 n j := by
    intro j; funext a
    match a with
    | ⟨0, _⟩ => rfl
    | ⟨1, _⟩ => rfl
  have hs : ∀ j : Fin 64, (val_main_v35 (F := Ideal) x0 x1 x2) (idx_main_v36 (ix1 n) j)
      = ((Real.log (Real.exp (simR x0 x2 n (Cert.Spec.labOf x1 n) j)
          / (Real.exp (simR x0 x2 n (Cert.Spec.labOf x1 n) j) + Cert.Spec.sneg (simR x0 x2 n) (Cert.Spec.labOf x1 n))) : ℝ) : EReal) := by
    intro j
    have h32 : idx_main_v30 (idx_main_v32 (ix2 n j)) = ix1 n := by
      funext a
      match a with
      | ⟨0, _⟩ => rfl
    have hS := sneg_nonneg (simR x0 x2 n) (Cert.Spec.labOf x1 n)
    have hE := Real.exp_pos (simR x0 x2 n (Cert.Spec.labOf x1 n) j)
    have hD : Real.exp (simR x0 x2 n (Cert.Spec.labOf x1 n) j) + Cert.Spec.sneg (simR x0 x2 n) (Cert.Spec.labOf x1 n) ≠ 0 :=
      ne_of_gt (by linarith)
    have hR : ¬ Real.exp (simR x0 x2 n (Cert.Spec.labOf x1 n) j)
        / (Real.exp (simR x0 x2 n (Cert.Spec.labOf x1 n) j) + Cert.Spec.sneg (simR x0 x2 n) (Cert.Spec.labOf x1 n)) ≤ 0 :=
      not_le.mpr (div_pos hE (by linarith))
    rw [hi, val_main_v35_apply, val_main_v34_apply, val_main_v33_apply, val_main_v31_apply, val_main_v32_apply, val_main_v30_apply,
      gathered_apply x0 x1 x2 hm, sim_apply x0 x2 hf hb, h32, sneg_apply x0 x1 x2 hf hb hm]
    rw [Ideal.hostUnary_log_def, Ideal.hostDivf_def, Ideal.addf_def, Ideal.hostUnary_exp_def, Ideal.exp_coe, ← EReal.coe_add,
      div_coe_coe _ hD, Ideal.log_coe, if_neg hR]
  rw [Finset.sum_congr rfl (fun j _ => hs j), ← coe_sum]
  rw [Ideal.hostNegf_def, Ideal.negf_def, Ideal.hostDivf_def, Ideal.ofBits_def, Ideal.ofBits_def, Ideal.ofBits_zero_f32, zero_add,
    ofBits_64, div_coe_coe _ (by norm_num), ← EReal.coe_neg]
  rfl

/-- The reference's result stage is the loss of the three arrays. -/
theorem ref_value (x0 : (⟨S4x256x128x128, .f32⟩ : BufTy).Contents (Elt Ideal)) (x1 : (⟨S4x128x128, .i32⟩ : BufTy).Contents (Elt Ideal))
    (x2 : (⟨S19x64x256, .f32⟩ : BufTy).Contents (Elt Ideal))
    (hf : ∀ i, x0 i = (((x0 i : EReal).toReal : ℝ) : EReal)) (hb : ∀ i, x2 i = (((x2 i : EReal).toReal : ℝ) : EReal))
    (hm : ∀ i, (x1 i).toNat < 19) :
    val_main_v41 (F := Ideal) x0 x1 x2 = fun _ => ((Cert.Spec.total x0 x1 x2 : ℝ) : EReal) := by
  funext i
  rw [val_main_v41_apply, val_main_v40_apply, val_main_cst_9_apply, val_main_cst_10_apply,
    ← Equiv.sum_comp (idxEquiv1 (n := 65536)).symm]
  have hs : ∀ n : Fin 65536, (val_main_v39 (F := Ideal) x0 x1 x2) ((idxEquiv1 (n := 65536)).symm n)
      = ((Cert.Spec.pixLoss (simR x0 x2 n) (Cert.Spec.labOf x1 n) : ℝ) : EReal) :=
    fun n => loss_apply x0 x1 x2 hf hb hm n
  rw [Finset.sum_congr rfl (fun n _ => hs n), ← coe_sum, Ideal.hostDivf_def, Ideal.ofBits_def, Ideal.ofBits_def,
    Ideal.ofBits_zero_f32, zero_add, ofBits_65536, div_coe_coe _ (by norm_num)]
  rfl

end Cert.RefValue

end
-- ==== Proof.KernelRun.lean ====
/-
  The kernel program's result. After the region the host takes element (t, 0, 0) of each of the 32
  rows of the output array — tile t's sum of pixel losses —, adds the 32 up from zero and divides by
  65536: the sum over all 65536 pixels of the pixel's loss, over 65536.
-/
import proofs.«401502_j34634616275635_2_alg».proof.Proof.KernelTile
import proofs.«401502_j34634616275635_2_alg».proof.Proof.SumTiles
import proofs.«401502_j34634616275635_2_alg».proof.Proof.RefValue
import Idealize.ShloMosaic.Lib.Pipeline.Value
import Idealize.ShloMosaic.Lib.ValueIdx
import Idealize.ShloMosaic.Lib.ValueLayout
import Idealize.ShloMosaic.Lib.ValueIdxRank1
import Idealize.ShloMosaic.Lib.StableHlo.Run
import Idealize.ShloMosaic.PureOps.Ideal.Laws

set_option pp.maxSteps 5000
set_option pp.deepTerms false

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The result buffer after the host lines that follow the region. -/
theorem tail_value (c : Dev nD) (hf : ∀ i, feat m c i = (((feat m c i).toReal : ℝ) : EReal))
    (hb : ∀ i, bank m c i = (((bank m c i).toReal : ℝ) : EReal)) (hm : ∀ i, (msk m c i).toNat < 19) :
    Pipeline.afterTail₀ cfgs (dats m) 0 (V0 m) [hostOps1] c main_v7
      = fun _ => ((Cert.Spec.total (feat m c) (msk m c) (bank m c) : ℝ) : EReal) := by
  unfold Pipeline.afterTail₀
  show StableHlo.after hostOps1 _ (Proc.devRef .tc main_v7) = _
  after_results
  have hA : Pipeline.withArrays (cfgs 0).spec c (V0 m c) (fun w => (dats m 0 c).arrAt w (cfgs 0).N) (Proc.tc.devRef main_v3) = G3 m c :=
    (Pipeline.withArrays_arr spec0 launch0.win.arr_inj c _ _ 3).trans (final3 m c hf hb hm)
  rw [hA]
  funext x
  show FloatOps.hostDivf (Host.reduceAdd (F := Ideal) _ (constant (F := Ideal) S_ .f32 0x00000000#32) reducesTo_S32_S_d0 h_S_ x) (FloatOps.ofBits (F := Ideal) .f32 0x47800000#32) = _
  generalize hy : (fun i : S32.Idx => shapeCast S32 (extractStridedSlice S32x1x1 ![0, 0, 0] (G3 m c) slices_S32x8x128_S32x1x1_0_0_0) shapeCasts_S32x1x1_S32 i) = y0
  have hr : Host.reduceAdd (F := Ideal) y0 (constant (F := Ideal) S_ .f32 0x00000000#32) reducesTo_S32_S_d0 h_S_ x
      = 0 + ∑ j : S32.Idx, y0 j := by
    simp only [Host.reduceAdd, Ideal.hostReduceAdd_def]
    refine (Ideal.hostReduceAdd_total reducesTo_S32_S_d0 (fun b => b.elim0) y0 _ x).trans ?_
    congr 1
    exact Ideal.ofBits_zero_f32
  have hs : ∀ t : Fin 32, y0 ((idxEquiv1 (n := 32)).symm t) = ((tileL m c t.val : ℝ) : EReal) := by
    intro t
    rw [← hy]
    show shapeCast S32 (extractStridedSlice S32x1x1 ![0, 0, 0] (G3 m c) slices_S32x8x128_S32x1x1_0_0_0) shapeCasts_S32x1x1_S32 (ix1 t) = _
    rw [shapeCast_apply _ _ (ix1 t) (ix3 t (0 : Fin 1) (0 : Fin 1)) (by
      rw [Shape.rowMajor_val_three, Shape.rowMajor_val_one]
      show (t.val * 1 + 0) * 1 + 0 = t.val
      omega)]
    rw [extractStridedSlice_apply _ _ _ (ix3 t (0 : Fin 1) (0 : Fin 1)) (ix3 t (0 : Fin 8) (0 : Fin 128)) (fun a => by
      match a with
      | ⟨0, _⟩ => show t.val = 0 + t.val; omega
      | ⟨1, _⟩ => rfl
      | ⟨2, _⟩ => rfl)]
    rfl
  have hT : ∑ t : Fin 32, tileL m c t.val = ∑ n : Fin 65536, pixL m c n := by
    rw [← Cert.SumTiles.sum_tiles (pixL m c)]
    refine Finset.sum_congr rfl fun t _ => ?_
    unfold tileL
    rw [dif_pos (Nat.lt_of_lt_of_eq t.isLt N_0.symm)]
    rfl
  rw [hr, zero_add, ← Equiv.sum_comp (idxEquiv1 (n := 32)).symm, Finset.sum_congr rfl (fun t _ => hs t), ← Cert.RefValue.coe_sum,
    Ideal.hostDivf_def, Ideal.ofBits_def, Cert.RefValue.ofBits_65536, Cert.RefValue.div_coe_coe _ (by norm_num), hT]
  rfl

/-- The kernel program's run: the result is the loss of the three argument arrays, which end unchanged. -/
theorem run_value (hf : ∀ c i, feat m c i = (((feat m c i).toReal : ℝ) : EReal))
    (hb : ∀ c i, bank m c i = (((bank m c i).toReal : ℝ) : EReal)) (hm : ∀ c i, (msk m c i).toNat < 19) :
    θ_run defs (onTc (τ := τ) (main (F := Ideal))) ⟨m, fun _ => 0, ρ⟩ (fun r => ∀ c : Dev nD,
      r.2.mem ((c.tc : Thread nD τ).loc main_v7) = (fun _ => ((Cert.Spec.total (feat m c) (msk m c) (bank m c) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v7 (Pipeline.mem_restRefs_of main_v7 (by decide) (by decide))).trans (tail_value m c (hf c) (hb c) (hm c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.PreDecode.lean ====
/-
  The precondition, decoded: every feature and every bank entry is a real number (its absolute
  value is below +∞), and every label word is at least 0 and below 19 as a signed number, so its
  value as a natural number is below 19.
-/
import proofs.«401502_j34634616275635_2_alg».proof.Pre_finite_inputs
import proofs.«401502_j34634616275635_2_alg».proof.Proof.Gen.Pre_finite_inputs
import Idealize.ShloMosaic.PureOps.Ideal
import Idealize.ShloMosaic.PureOps.Ideal.Laws
import Idealize.ShloMosaic.Lib.ReduceAll
import Idealize.ShloMosaic.Lib.StableHlo.Predicate
import Idealize.ShloMosaic.Lib.ValueIdx

noncomputable section

open scoped BigOperators

namespace Cert.PreDecode

open Cert.Pre_finite_inputs Idealize.ShloMosaic Idealize.ShloMosaic.ValueIdx

/-- The shape with no axes has exactly one index. -/
local instance : Subsingleton S_.Idx := ⟨fun a b => funext fun d => d.elim0⟩

/-- The f32 word `0x7F800000` is `+∞`. -/
theorem ofBits_inf : Ideal.ofBits .f32 0x7F800000#32 = (⊤ : EReal) := by
  simp [Ideal.ofBits, Ideal.ieee]

/-- An extended real whose absolute value `max x (-x)` is below `+∞` is neither `+∞` nor `-∞`
(as `-(-∞) = +∞`), so it is a real number. -/
theorem real_of_abs_lt (x : EReal)
    (e : Ideal.cmp .olt (max x (-x)) (Ideal.ofBits .f32 0x7F800000#32) = 1#1) :
    x = ((x.toReal : ℝ) : EReal) := by
  rw [ofBits_inf] at e
  have hlt : max x (-x) < ⊤ := by
    simpa [Ideal.cmp, StableHlo.Predicate.ofBool_eq_one_iff] using e
  have hx : x ≠ ⊤ := by
    rintro rfl; simp at hlt
  have hx' : x ≠ ⊥ := by
    rintro rfl; simp at hlt
  exact (EReal.coe_toReal hx hx').symm

/-- A 32-bit word that is at least 0 and below 19 as a signed number is below 19 as a natural number:
a word with the sign bit set reads as a negative number, which the first comparison excludes. -/
theorem toNat_lt_of_signed (w : BitVec 32) (h0 : IntOp.cmpi .sge w 0#32 = 1#1) (h1 : IntOp.cmpi .slt w 19#32 = 1#1) :
    w.toNat < 19 := by
  rw [IntOp.cmpi_sge] at h0
  rw [IntOp.cmpi_slt] at h1
  have hw := BitVec.toInt_eq_toNat_cond w
  have z : (0#32 : BitVec 32).toInt = 0 := by decide
  have n : (19#32 : BitVec 32).toInt = 19 := by decide
  rw [z] at h0
  rw [n] at h1
  have := w.isLt
  split at hw <;> omega

/-- From the printed precondition at the ideal instance: real features, real bank, labels below 19. -/
theorem pre_decode (x0 : FVec Ideal S4x256x128x128 .f32) (x1 : IVec S4x128x128 32) (x2 : FVec Ideal S19x64x256 .f32)
    (h : Cert.Pre_finite_inputs.fn (F := Ideal) x0 x1 x2 = fun _ => 1#1) :
    (∀ i, x0 i = (((x0 i : EReal).toReal : ℝ) : EReal)) ∧ (∀ i, x2 i = (((x2 i : EReal).toReal : ℝ) : EReal))
      ∧ ∀ i, (x1 i).toNat < 19 := by
  -- the predicate at its one index is a conjunction of four "all" reductions, each equal to 1
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_⟩
  · -- every feature: |x0 i| < +∞
    have e := Host.reduce_andi_all _ _ _ _ _ h1 i
    rw [cmpf_apply, StableHlo.Predicate.bcast_scalar _ Facts.h_S_, constant_apply] at e
    exact real_of_abs_lt _ e
  · -- every bank entry: |x2 i| < +∞
    have e := Host.reduce_andi_all _ _ _ _ _ h2 i
    rw [cmpf_apply, StableHlo.Predicate.bcast_scalar _ Facts.h_S_, constant_apply] at e
    exact real_of_abs_lt _ e
  · -- every label: 0 ≤ x1 i and x1 i < 19, both signed
    have e3 := Host.reduce_andi_all _ _ _ _ _ h3 i
    have e4 := Host.reduce_andi_all _ _ _ _ _ h4 i
    unfold cmpi at e3 e4
    rw [StableHlo.Predicate.bcast_scalar _ Facts.h_S_] at e3 e4
    change IntOp.cmpi .sge (x1 i) 0#32 = 1#1 at e3
    change IntOp.cmpi .slt (x1 i) 19#32 = 1#1 at e4
    exact toNat_lt_of_signed _ e3 e4

end Cert.PreDecode

end
-- ==== Proof.lean ====
/-
  The certificate of the tiled contrastive-loss kernel against its reference, over the extended reals.

  Both programs compute the mean over the 65536 pixels of the pixel's loss
  −mean_j log(exp(s l j) / (exp(s l j) + Σ_{k ≠ l} exp(mean_j s k j))), with s k j the pixel's channel
  dot product with entry j of class k over 100 and l the pixel's label. The kernel computes it tile by
  tile (32 tiles of 2048 pixels, one similarity matrix per tile on the matrix unit, the own-class
  selection as a sum over the classes of the class's columns times the label's indicator, a multiply
  by the constant named 1/100 where the reference divides by 100); the reference gathers the own-class
  row, masks with a one-hot row and reduces over all pixels at once. Under the precondition — finite
  features and bank, labels in 0 … 18 — every intermediate is a real number, the indicator sum is
  the gathered row, and regrouping the finite sums gives the same real. The frames of the two kernel
  programs are the generated ones; the reference's frame is its generated run; the one rewrite of
  the idealization is the named constant's statement.
-/
import proofs.«401502_j34634616275635_2_alg».proof.Defs
import proofs.«401502_j34634616275635_2_alg».proof.Proof.Gen.Kernel
import proofs.«401502_j34634616275635_2_alg».proof.Proof.Gen.Kernel.Frame
import proofs.«401502_j34634616275635_2_alg».proof.Proof.Gen.KernelIdeal
import proofs.«401502_j34634616275635_2_alg».proof.Proof.Gen.KernelIdeal.Frame
import proofs.«401502_j34634616275635_2_alg».proof.Proof.Gen.ReferenceIdeal
import proofs.«401502_j34634616275635_2_alg».proof.Proof.Gen.ReferenceIdeal.Run
import proofs.«401502_j34634616275635_2_alg».proof.Proof.Gen.ReferenceIdeal.Read
import proofs.«401502_j34634616275635_2_alg».proof.Proof.Gen.Pre_finite_inputs
import proofs.«401502_j34634616275635_2_alg».proof.Proof.KernelRun
import proofs.«401502_j34634616275635_2_alg».proof.Proof.RefValue
import proofs.«401502_j34634616275635_2_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the kernel's scale 0.01 read as the rational 1/100. -/
theorem preserves : Cert.preserves_Kernel_KernelIdeal :=
  IdealRules.named_const.statement Cert.KernelIdeal.κ "inv_100" .f32 0x3C23D70A#32 ((1 / 100 : ℝ) : EReal) rfl

/-- Both programs end with the loss of the three argument arrays. -/
theorem algebraic : Cert.algebraic_KernelIdeal_ReferenceIdeal := by
  intro m ρ m' ρ' hpre hagree
  have hdec := fun c => Cert.PreDecode.pre_decode _ _ _ (hpre c)
  refine ⟨fun c => fun _ => ((Cert.Spec.total (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) : ℝ) : EReal),
    Cert.KernelIdeal.KValue.run_value m ρ (fun c => (hdec c).1) (fun c => (hdec c).2.1) (fun c => (hdec c).2.2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, (hagree c).1, (hagree c).2.1, (hagree c).2.2]
  exact Cert.RefValue.ref_value _ _ _ (hdec c).1 (hdec c).2.1 (hdec c).2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
